-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S1 : Shape := ⟨1, ![1]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1 : S_.BroadcastsInDim S1 (![] : Fin 0 → Fin S1.rank)
  reducesTo_S1_S_d0 : S1.ReducesTo [0] S_
  slices_S2x800000_S1x800000_1_0 : S2x800000.Slices ![1, 0] S1x800000
  shapeCasts_S1x800000_S800000 : S1x800000.ShapeCasts S800000

variable [Facts]

def fn_part1 {F : FTy → Type} [FloatOps F] (main_arg1 : IVec S2x800000 32) (main_v13 : IVec S_ 1) (main_v15 : IVec S800000 32) (main_v16 : IVec S800000 32) : IVec S_ 1 :=
  let main_v17 : IVec S800000 1 := cmpi .sge main_v15 main_v16
  let main_v18 : IVec S1x800000 32 := (extractStridedSlice S1x800000 ![1, 0] · slices_S2x800000_S1x800000_1_0) main_arg1
  let main_v19 : IVec S800000 32 := shapeCast S800000 main_v18 shapeCasts_S1x800000_S800000
  let main_c_5 : IVec S_ 32 := constantI S_ 32 50000#32
  let main_v20 : IVec S800000 32 := broadcastInDim S800000 ![] bcast_S_S800000 main_c_5
  let main_v21 : IVec S800000 1 := cmpi .slt main_v19 main_v20
  let main_v22 : IVec S800000 1 := andi main_v17 main_v21
  let main_c_6 : IVec S_ 1 := constantI S_ 1 1#1
  let main_v23 : IVec S_ 1 := (fun x v => Host.reduce IntOp.andi x v reducesTo_S800000_S_d0 h_S_) main_v22 main_c_6
  let main_v24 : IVec S_ 1 := andi main_v13 main_v23
  main_v24

def fn {F : FTy → Type} [FloatOps F] (main_arg0 : FVec F S50000x64 .f32) (main_arg1 : IVec S2x800000 32) (main_arg2 : FVec F S800000 .f32) (main_arg3 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : IVec S1x800000 32 := (extractStridedSlice S1x800000 ![1, 0] · slices_S2x800000_S1x800000_1_0) main_arg1
  let main_v15 : IVec S800000 32 := shapeCast S800000 main_v14 shapeCasts_S1x800000_S800000
  let main_c_4 : IVec S_ 32 := constantI S_ 32 0#32
  let main_v16 : IVec S800000 32 := broadcastInDim S800000 ![] bcast_S_S800000 main_c_4
  fn_part1 (F := F) main_arg1 main_v13 main_v15 main_v16
-- ==== Kernel.lean ====
abbrev S50000x64 : Shape := ⟨2, ![50000, 64]⟩
abbrev S2x800000 : Shape := ⟨2, ![2, 800000]⟩
abbrev S800000 : Shape := ⟨1, ![800000]⟩
abbrev S1 : Shape := ⟨1, ![1]⟩
abbrev S1x800000 : Shape := ⟨2, ![1, 800000]⟩
abbrev S_ : Shape := ⟨0, ![]⟩
abbrev S50176x64 : Shape := ⟨2, ![50176, 64]⟩
abbrev S2x50176x64 : Shape := ⟨3, ![2, 50176, 64]⟩
abbrev S128 : Shape := ⟨1, ![128]⟩
abbrev S1x50176x64 : Shape := ⟨3, ![1, 50176, 64]⟩
abbrev S128x64 : Shape := ⟨2, ![128, 64]⟩
abbrev S12544x64 : Shape := ⟨2, ![12544, 64]⟩
abbrev S1x12544 : Shape := ⟨2, ![1, 12544]⟩
abbrev S128x1 : Shape := ⟨2, ![128, 1]⟩
abbrev S128x12544 : Shape := ⟨2, ![128, 12544]⟩
abbrev S12544x1 : Shape := ⟨2, ![12544, 1]⟩
abbrev S1x128 : Shape := ⟨2, ![1, 128]⟩
abbrev S12544x128 : Shape := ⟨2, ![12544, 128]⟩
abbrev S1x12544x64 : Shape := ⟨3, ![1, 12544, 64]⟩

abbrev nBuf : Space → Nat
  | .hbm => 29
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S1, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S800000, .i1⟩
  | .hbm, ⟨9, _⟩ => ⟨S_, .f32⟩
  | .hbm, ⟨10, _⟩ => ⟨S800000, .f32⟩
  | .hbm, ⟨11, _⟩ => ⟨S800000, .f32⟩
  | .hbm, ⟨12, _⟩ => ⟨S50000x64, .bf16⟩
  | .hbm, ⟨13, _⟩ => ⟨S_, .i32⟩
  | .hbm, ⟨14, _⟩ => ⟨S_, .bf16⟩
  | .hbm, ⟨15, _⟩ => ⟨S50176x64, .bf16⟩
  | .hbm, ⟨16, _⟩ => ⟨S2x50176x64, .f32⟩
  | .hbm, ⟨17, _⟩ => ⟨S1x50176x64, .f32⟩
  | .hbm, ⟨18, _⟩ => ⟨S50176x64, .f32⟩
  | .hbm, ⟨19, _⟩ => ⟨S1x50176x64, .f32⟩
  | .hbm, ⟨20, _⟩ => ⟨S50176x64, .f32⟩
  | .hbm, ⟨21, _⟩ => ⟨S50176x64, .f32⟩
  | .hbm, ⟨22, _⟩ => ⟨S50000x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S50000x64, .f32⟩
  | .hbm, ⟨27, _⟩ => ⟨S50000x64, .f32⟩
  | .hbm, ⟨28, _⟩ => ⟨S50000x64, .f32⟩
  | .local _ .vmem, ⟨0, _⟩ => ⟨S128, .i32⟩
  | .local _ .vmem, ⟨1, _⟩ => ⟨S128, .i32⟩
  | .local _ .vmem, ⟨2, _⟩ => ⟨S128, .i32⟩
  | .local _ .vmem, ⟨3, _⟩ => ⟨S128, .i32⟩
  | .local _ .vmem, ⟨4, _⟩ => ⟨S128, .f32⟩
  | .local _ .vmem, ⟨5, _⟩ => ⟨S128, .f32⟩
  | .local _ .vmem, ⟨6, _⟩ => ⟨S50176x64, .bf16⟩
  | .local _ .vmem, ⟨7, _⟩ => ⟨S1x50176x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![2, 3125], ![false, false]⟩

def cc0_transform_0 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c3125_i32 : BitVec 32 := 3125#32
  let v0 : BitVec 32 := Scalar.muli arg0 c3125_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S50176x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x50176x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bitsLt_bf16_f32 : FTy.bits .bf16 < FTy.bits .f32
  pads_S50000x64_S50176x64_01760_000 : S50000x64.Pads (![0, 0] : Fin 2 → Nat) ![176, 0] ![0, 0] S50176x64
  h_S_ : 0 < S_.numel
  inb_S1x50176x64_S1x50176x64_0_0_0 : ∀ a, (![0, 0, 0] : Fin 3 → Nat) a + S1x50176x64.size a ≤ S1x50176x64.size a
  h_S1x50176x64 : 0 < S1x50176x64.numel
  shapeCasts_S1x50176x64_S50176x64 : S1x50176x64.ShapeCasts S50176x64
  shapeCasts_S50176x64_S1x50176x64 : S50176x64.ShapeCasts S1x50176x64
  inb_S128_S128_0 : ∀ a, (![0] : Fin 1 → Nat) a + S128.size a ≤ S128.size a
  h_S128 : 0 < S128.numel
  shapeCasts_S128_S128 : S128.ShapeCasts S128
  inb_S50176x64_S12544x64_0_0 : ∀ a, (![0, 0] : Fin 2 → Nat) a + S12544x64.size a ≤ S50176x64.size a
  h_S12544x64 : 0 < S12544x64.numel
  shapeCasts_S12544x64_S12544x64 : S12544x64.ShapeCasts S12544x64
  iota_S1x12544_d1_w32 : S1x12544.Iotas .tc 32 [1]
  shapeCasts_S128_S128x1 : S128.ShapeCasts S128x1
  broadcasts_S128x1_S128x12544 : S128x1.Broadcasts S128x12544
  broadcasts_S1x12544_S128x12544 : S1x12544.Broadcasts S128x12544
  shapeCasts_S128x1_S128x1 : S128x1.ShapeCasts S128x1
  inb_S50176x64_S12544x64_12544_0 : ∀ a, (![12544, 0] : Fin 2 → Nat) a + S12544x64.size a ≤ S50176x64.size a
  inb_S50176x64_S12544x64_25088_0 : ∀ a, (![25088, 0] : Fin 2 → Nat) a + S12544x64.size a ≤ S50176x64.size a
  inb_S50176x64_S12544x64_37632_0 : ∀ a, (![37632, 0] : Fin 2 → Nat) a + S12544x64.size a ≤ S50176x64.size a
  iota_S12544x1_d0_w32 : S12544x1.Iotas .tc 32 [0]
  shapeCasts_S128_S1x128 : S128.ShapeCasts S1x128
  broadcasts_S12544x1_S12544x128 : S12544x1.Broadcasts S12544x128
  broadcasts_S1x128_S12544x128 : S1x128.Broadcasts S12544x128
  natLt_1_32 : 1 < 32
  inb_S1x50176x64_S1x12544x64_0_0_0 : ∀ a, (![0, 0, 0] : Fin 3 → Nat) a + S1x12544x64.size a ≤ S1x50176x64.size a
  h_S1x12544x64 : 0 < S1x12544x64.numel
  shapeCasts_S1x12544x64_S12544x64 : S1x12544x64.ShapeCasts S12544x64
  shapeCasts_S12544x64_S1x12544x64 : S12544x64.ShapeCasts S1x12544x64
  inb_S1x50176x64_S1x12544x64_0_12544_0 : ∀ a, (![0, 12544, 0] : Fin 3 → Nat) a + S1x12544x64.size a ≤ S1x50176x64.size a
  inb_S1x50176x64_S1x12544x64_0_25088_0 : ∀ a, (![0, 25088, 0] : Fin 3 → Nat) a + S1x12544x64.size a ≤ S1x50176x64.size a
  inb_S1x50176x64_S1x12544x64_0_37632_0 : ∀ a, (![0, 37632, 0] : Fin 3 → Nat) a + S1x12544x64.size a ≤ S1x50176x64.size a
  slices_S2x50176x64_S1x50176x64_0_0_0 : S2x50176x64.Slices ![0, 0, 0] S1x50176x64
  slices_S2x50176x64_S1x50176x64_1_0_0 : S2x50176x64.Slices ![1, 0, 0] S1x50176x64
  slices_S50176x64_S50000x64_0_0 : S50176x64.Slices ![0, 0] S50000x64
  shapeCasts_S1_S_ : S1.ShapeCasts S_
  bcast_S_S50000x64 : S_.BroadcastsInDim S50000x64 (![] : Fin 0 → Fin S50000x64.rank)
  dot_S128x12544_S12544x64_S128x64_1_0_0_1_n_n_wf : DotDims.WF S128x12544 S12544x64 S128x64 [1] [0] [0] [1] [] []
  dot_S12544x128_S128x64_S12544x64_1_0_0_1_n_n_wf : DotDims.WF S12544x128 S128x64 S12544x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S800000.size a
  hwx0_0 : ∀ i : grid0.Coords, EltTy.bits .i32 = 32 ∨ (Rect.block (s := S800000) S128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S800000.size a
  hwx0_1 : ∀ i : grid0.Coords, EltTy.bits .i32 = 32 ∨ (Rect.block (s := S800000) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S800000.size a
  hwx0_2 : ∀ i : grid0.Coords, EltTy.bits .f32 = 32 ∨ (Rect.block (s := S800000) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50176x64.size a ≤ S50176x64.size a
  hwx0_3 : ∀ i : grid0.Coords, EltTy.bits .bf16 = 32 ∨ (Rect.block (s := S50176x64) S50176x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50176x64.size a ≤ S2x50176x64.size a
  hwx0_4 : ∀ i : grid0.Coords, EltTy.bits .f32 = 32 ∨ (Rect.block (s := S2x50176x64) S1x50176x64.size (cc0_transform_4 i) (hinb0_4 i)).WholeWords (EltTy.packing .f32)

variable [Facts₀]

def dot_S128x12544_S12544x64_S128x64_1_0_0_1_n_n : DotDims S128x12544 S12544x64 S128x64 where
  lhsContracting := [1]
  rhsContracting := [0]
  lhsNonContracting := [0]
  rhsNonContracting := [1]
  lhsBatch := []
  rhsBatch := []
  wf := dot_S128x12544_S12544x64_S128x64_1_0_0_1_n_n_wf
def dot_S12544x128_S128x64_S12544x64_1_0_0_1_n_n : DotDims S12544x128 S128x64 S12544x64 where
  lhsContracting := [1]
  rhsContracting := [0]
  lhsNonContracting := [0]
  rhsNonContracting := [1]
  lhsBatch := []
  rhsBatch := []
  wf := dot_S12544x128_S128x64_S12544x64_1_0_0_1_n_n_wf

abbrev win0_0 : Pipeline.Window sig grid0 :=
  Pipeline.Window.ofSpec (Memref.whole main_v1) S128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S50176x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x50176x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩

abbrev nBuf : Space → Nat
  | .hbm => 34
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S1, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S800000, .i1⟩
  | .hbm, ⟨9, _⟩ => ⟨S_, .f32⟩
  | .hbm, ⟨10, _⟩ => ⟨S800000, .f32⟩
  | .hbm, ⟨11, _⟩ => ⟨S800000, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S50000x64, .f32⟩
  | .hbm, ⟨32, _⟩ => ⟨S50000x64, .f32⟩
  | .hbm, ⟨33, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S1_S_ : S1.ShapeCasts S_
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics both programs compute, as one function of the argument arrays.

  A graph layer over 50000 nodes with 64 features and 800000 weighted edges (row r(E), column c(E), weight ω(E)):
  node i's result is (1 + ε) · x[i] plus the sum, over the edges whose row is i, of the edge's weight times the
  feature row x[c(E)], where an edge from a node to itself weighs nothing. A column id that names no row of x
  contributes the zero row (`xAt`); the kernel's one-hot product over the zero-padded table computes exactly
  that for every id, and the reference's gather agrees with it wherever the id is in range.
-/
import Idealize.ShloMosaic.PureOps.Ideal
import Idealize.ShloMosaic.Lib.ValueIdx

noncomputable section

open scoped BigOperators

namespace Cert.GinSpec

open Idealize.ShloMosaic Idealize.ShloMosaic.ValueIdx

/-- The feature table's shape, the edge list's, an edge vector's, and the one-element shape of ε. -/
abbrev SX : Shape := ⟨2, ![50000, 64]⟩
abbrev SE2 : Shape := ⟨2, ![2, 800000]⟩
abbrev SE : Shape := ⟨1, ![800000]⟩
abbrev SEps : Shape := ⟨1, ![1]⟩

/-- Row `c` of the feature table at feature `d`, the id read as an unsigned word; zero when the id names no row. -/
def xAt (x : SX.Idx → EReal) (c : BitVec 32) (d : Fin 64) : EReal :=
  if h : c.toNat < 50000 then x (ix2 ⟨c.toNat, h⟩ d) else 0

/-- Edge `E`'s weight with self loops removed. -/
def wgt (ei : SE2.Idx → BitVec 32) (ew : SE.Idx → EReal) (E : Fin 800000) : EReal :=
  if ei (ix2 (0 : Fin 2) E) = ei (ix2 (1 : Fin 2) E) then 0 else ew (ix1 E)

/-- Edge `E`'s message: its weight times the feature row its column names. -/
def emsg (x : SX.Idx → EReal) (ei : SE2.Idx → BitVec 32) (ew : SE.Idx → EReal) (d : Fin 64) (E : Fin 800000) : EReal :=
  wgt ei ew E * xAt x (ei (ix2 (1 : Fin 2) E)) d

/-- What edge `E` adds to node `i`: its message when its row is `i`, nothing otherwise. -/
def edgeTerm (x : SX.Idx → EReal) (ei : SE2.Idx → BitVec 32) (ew : SE.Idx → EReal) (i : Nat) (d : Fin 64)
    (E : Fin 800000) : EReal :=
  if ei (ix2 (0 : Fin 2) E) = BitVec.ofNat 32 i then emsg x ei ew d E else 0

/-- The aggregate at node `i`, feature `d`: the sum over all edges of what each adds there. -/
def agg (x : SX.Idx → EReal) (ei : SE2.Idx → BitVec 32) (ew : SE.Idx → EReal) (i : Nat) (d : Fin 64) : EReal :=
  ∑ E : Fin 800000, edgeTerm x ei ew i d E

/-- The layer's result: (1 + ε) · x + the aggregate, the literal one kept as the word both programs carry. -/
def result (x : SX.Idx → EReal) (ei : SE2.Idx → BitVec 32) (ew : SE.Idx → EReal) (eps : SEps.Idx → EReal) :
    SX.Idx → EReal :=
  fun y => (Ideal.ofBits .f32 0x3F800000#32 + eps (ix1 (0 : Fin 1))) * x y + agg x ei ew (y 0).val (y 1)

/-! ## One block of 128 edges inside the kernel: the two one-hot products, chunk by chunk -/

/-- An edge block's shape, and a 12544-row chunk of the padded table's. -/
abbrev SBlk : Shape := ⟨1, ![128]⟩
abbrev SChunk : Shape := ⟨2, ![12544, 64]⟩

/-- The share of edge `e`'s message that the chunk of node ids `s, s + 1, …, s + 12543` contributes: the one-hot row of
    the edge's column id against those ids, carrying the edge's weight, times the chunk of the table. -/
def chunkMsg (s : Nat) (cl : SBlk.Idx → BitVec 32) (w : SBlk.Idx → EReal) (xc : SChunk.Idx → EReal)
    (e : Fin 128) (d : Fin 64) : EReal :=
  ∑ j : Fin 12544, (if cl (ix1 e) = BitVec.ofNat 32 (s + j.val) then w (ix1 e) else 0) * xc (ix2 j d)

/-- The one-hot of node id `s + p` against edge `e`'s row id: one where they are the same word, zero elsewhere. -/
def rowHit (s : Nat) (rw : SBlk.Idx → BitVec 32) (p : Fin 12544) (e : Fin 128) : EReal :=
  if BitVec.ofNat 32 (s + p.val) = rw (ix1 e) then 1 else 0

end Cert.GinSpec

end
-- ==== Proof.Algebra.lean ====
/-
  The algebra of one block of 128 edges, over the extended reals.

  A one-hot row times a table is one row of the table: the sum over a chunk's 12544 node ids of
  (weight where the edge's column id is that node id, zero elsewhere) × (the chunk's row) has at most one
  term that is not zero, the one at the column id when the chunk holds it. The four chunks tile the padded
  table, so their four sums add up to weight × (the padded table's row at the column id), and to zero when
  the id names no row. The same for the scatter: a one-hot column against the message block picks out the
  messages of the edges whose row id is the node. No finiteness is used: a zero factor kills its term, and
  the sums are only re-bracketed.
-/
import proofs.«418629_j48507360641133_4_alg».proof.Proof.Spec

noncomputable section

open scoped BigOperators

namespace Cert.GinSpec

open Idealize.ShloMosaic Idealize.ShloMosaic.ValueIdx

/-- The padded table's shape: 50000 rows of features and 176 rows of zeros. -/
abbrev SXp : Shape := ⟨2, ![50176, 64]⟩

/-- The padded table's row named by a column id read as an unsigned word; zero when the id names no row. -/
def xpAt (xp : SXp.Idx → EReal) (c : BitVec 32) (d : Fin 64) : EReal :=
  if h : c.toNat < 50176 then xp (ix2 ⟨c.toNat, h⟩ d) else 0

/-- Rows `s, …, s + 12543` of the padded table. -/
def chunkOf (s : Nat) (hs : s + 12544 ≤ 50176) (xp : SXp.Idx → EReal) : SChunk.Idx → EReal :=
  fun j => xp (ix2 ⟨s + (j 0).val, by have := idx2_lt0 j; omega⟩ (j 1))

theorem ofNat_toNat_small (n : Nat) (h : n < 50176) : (BitVec.ofNat 32 n).toNat = n := by
  rw [BitVec.toNat_ofNat]; exact Nat.mod_eq_of_lt (by omega)

/-- A chunk's one-hot sum is the weight times the table's row at the column id when the chunk holds that id,
    and zero otherwise. -/
theorem chunkMsg_chunkOf (s : Nat) (hs : s + 12544 ≤ 50176) (cl : SBlk.Idx → BitVec 32) (w : SBlk.Idx → EReal)
    (xp : SXp.Idx → EReal) (e : Fin 128) (d : Fin 64) :
    chunkMsg s cl w (chunkOf s hs xp) e d
      = if s ≤ (cl (ix1 e)).toNat ∧ (cl (ix1 e)).toNat < s + 12544 then w (ix1 e) * xpAt xp (cl (ix1 e)) d else 0 := by
  unfold chunkMsg
  by_cases hr : s ≤ (cl (ix1 e)).toNat ∧ (cl (ix1 e)).toNat < s + 12544
  · rw [if_pos hr]
    have hj : (cl (ix1 e)).toNat - s < 12544 := by omega
    rw [Finset.sum_eq_single (⟨(cl (ix1 e)).toNat - s, hj⟩ : Fin 12544)]
    · have hc : cl (ix1 e) = BitVec.ofNat 32 (s + ((cl (ix1 e)).toNat - s)) := by
        apply BitVec.eq_of_toNat_eq
        rw [ofNat_toNat_small _ (by omega)]; omega
      rw [if_pos hc]
      congr 1
      unfold chunkOf xpAt
      rw [dif_pos (by omega : (cl (ix1 e)).toNat < 50176)]
      congr 2
      apply Fin.ext
      show s + ((cl (ix1 e)).toNat - s) = (cl (ix1 e)).toNat
      omega
    · intro j _ hne
      have hc : ¬ cl (ix1 e) = BitVec.ofNat 32 (s + j.val) := by
        intro h
        apply hne
        apply Fin.ext
        have := congrArg BitVec.toNat h
        rw [ofNat_toNat_small _ (by have := j.isLt; omega)] at this
        show j.val = (cl (ix1 e)).toNat - s
        omega
      rw [if_neg hc, zero_mul]
    · intro h; exact absurd (Finset.mem_univ _) h
  · rw [if_neg hr]
    apply Finset.sum_eq_zero
    intro j _
    have hc : ¬ cl (ix1 e) = BitVec.ofNat 32 (s + j.val) := by
      intro h
      apply hr
      have := congrArg BitVec.toNat h
      rw [ofNat_toNat_small _ (by have := j.isLt; omega)] at this
      have := j.isLt
      omega
    rw [if_neg hc, zero_mul]

/-- The four chunks' sums, added in the kernel's order onto zero, are the weight times the padded table's row. -/
theorem msg_four (cl : SBlk.Idx → BitVec 32) (w : SBlk.Idx → EReal) (xp : SXp.Idx → EReal) (e : Fin 128) (d : Fin 64) :
    (((0 + chunkMsg 0 cl w (chunkOf 0 (by omega) xp) e d) + chunkMsg 12544 cl w (chunkOf 12544 (by omega) xp) e d)
        + chunkMsg 25088 cl w (chunkOf 25088 (by omega) xp) e d) + chunkMsg 37632 cl w (chunkOf 37632 (by omega) xp) e d
      = w (ix1 e) * xpAt xp (cl (ix1 e)) d := by
  rw [chunkMsg_chunkOf, chunkMsg_chunkOf, chunkMsg_chunkOf, chunkMsg_chunkOf]
  by_cases h0 : (cl (ix1 e)).toNat < 12544
  · rw [if_pos ⟨by omega, by omega⟩, if_neg (by omega), if_neg (by omega), if_neg (by omega)]; simp
  · by_cases h1 : (cl (ix1 e)).toNat < 25088
    · rw [if_neg (by omega), if_pos ⟨by omega, by omega⟩, if_neg (by omega), if_neg (by omega)]; simp
    · by_cases h2 : (cl (ix1 e)).toNat < 37632
      · rw [if_neg (by omega), if_neg (by omega), if_pos ⟨by omega, by omega⟩, if_neg (by omega)]; simp
      · by_cases h3 : (cl (ix1 e)).toNat < 50176
        · rw [if_neg (by omega), if_neg (by omega), if_neg (by omega), if_pos ⟨by omega, by omega⟩]; simp
        · rw [if_neg (by omega), if_neg (by omega), if_neg (by omega), if_neg (by omega)]
          unfold xpAt
          rw [dif_neg h3]; simp

/-- What one block of edges adds to node `i`, feature `d`: the messages of the block's edges whose row id is `i`. -/
def blockDelta (rw cl : SBlk.Idx → BitVec 32) (w : SBlk.Idx → EReal) (xp : SXp.Idx → EReal) (i : Nat) (d : Fin 64) : EReal :=
  ∑ e : Fin 128, if BitVec.ofNat 32 i = rw (ix1 e) then w (ix1 e) * xpAt xp (cl (ix1 e)) d else 0

/-- The one-hot column of node `s + p` against a message block is that node's share of the block. -/
theorem rowHit_sum (s : Nat) (rw : SBlk.Idx → BitVec 32) (p : Fin 12544) (M : Fin 128 → EReal) :
    ∑ e : Fin 128, rowHit s rw p e * M e = ∑ e : Fin 128, if BitVec.ofNat 32 (s + p.val) = rw (ix1 e) then M e else 0 := by
  refine Finset.sum_congr rfl fun e _ => ?_
  unfold rowHit
  split <;> simp

/-- One chunk of the scatter after the whole gather: node `s + p`'s share of the block. -/
theorem scatter_gather (s : Nat) (x0 x1 : SBlk.Idx → BitVec 32) (x2 : SBlk.Idx → EReal) (x3 : SXp.Idx → EReal)
    (p : Fin 12544) (d : Fin 64) :
    ∑ e : Fin 128, rowHit s x0 p e *
        ((((0 + chunkMsg 0 x1 x2 (chunkOf 0 (by omega) x3) e d) + chunkMsg 12544 x1 x2 (chunkOf 12544 (by omega) x3) e d)
          + chunkMsg 25088 x1 x2 (chunkOf 25088 (by omega) x3) e d) + chunkMsg 37632 x1 x2 (chunkOf 37632 (by omega) x3) e d)
      = blockDelta x0 x1 x2 x3 (s + p.val) d := by
  rw [rowHit_sum]
  unfold blockDelta
  refine Finset.sum_congr rfl fun e _ => ?_
  rw [msg_four]

end Cert.GinSpec

end
-- ==== Proof.GatherPay.lean ====
/-
  The gather half of one grid point, read at an index: the accumulated message block of 128 edges is the zero block
  plus four matrix products, one per 12544-row chunk of the zero-padded feature table. Each product's left factor is
  the one-hot row of the edge's column id against the chunk's node ids, carrying the edge's weight; into a zero
  accumulator the product at (e, d) is the plain sum over the chunk's rows.
-/
import proofs.«418629_j48507360641133_4_alg».proof.Proof.Gen.KernelIdeal.Skeleton
import proofs.«418629_j48507360641133_4_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.KernelIdeal.GinPay

open Idealize.ShloMosaic Idealize.ShloMosaic.ValueIdx Cert.KernelIdeal Cert.KernelIdeal.Gen Cert.GinSpec

/-! ## The product's operand indices, coordinate by coordinate -/

theorem lhs_dot_0 (j : S128x64.Idx) (k : dot_S128x12544_S12544x64_S128x64_1_0_0_1_n_n.contr.Idx) :
    (dot_S128x12544_S12544x64_S128x64_1_0_0_1_n_n.lhsIdx j k 0).val = (j 0).val := by
  simp [DotDims.lhsIdx, dot_S128x12544_S12544x64_S128x64_1_0_0_1_n_n]; rfl

theorem lhs_dot_1 (j : S128x64.Idx) (k : dot_S128x12544_S12544x64_S128x64_1_0_0_1_n_n.contr.Idx) :
    (dot_S128x12544_S12544x64_S128x64_1_0_0_1_n_n.lhsIdx j k 1).val = (k ⟨0, by decide⟩).val :=
  DotDims.lhsIdx_val_of_single _ rfl j k

theorem rhs_dot_0 (j : S128x64.Idx) (k : dot_S128x12544_S12544x64_S128x64_1_0_0_1_n_n.contr.Idx) :
    (dot_S128x12544_S12544x64_S128x64_1_0_0_1_n_n.rhsIdx j k 0).val = (k ⟨0, by decide⟩).val :=
  DotDims.rhsIdx_val_of_single _ rfl j k

theorem rhs_dot_1 (j : S128x64.Idx) (k : dot_S128x12544_S12544x64_S128x64_1_0_0_1_n_n.contr.Idx) :
    (dot_S128x12544_S12544x64_S128x64_1_0_0_1_n_n.rhsIdx j k 1).val = (j 1).val := by
  simp [DotDims.rhsIdx, dot_S128x12544_S12544x64_S128x64_1_0_0_1_n_n]; rfl

/-- The left operand's index at output (e, d) and contraction position j is (e, j). -/
theorem lhs_dot (e : Fin 128) (d : Fin 64) (j : Fin 12544) :
    dot_S128x12544_S12544x64_S128x64_1_0_0_1_n_n.lhsIdx (ix2 e d)
      ((contrEquiv1 dot_S128x12544_S12544x64_S128x64_1_0_0_1_n_n 12544 rfl rfl).symm j) = ix2 e j := by
  have c2 := contrEquiv1_symm_val dot_S128x12544_S12544x64_S128x64_1_0_0_1_n_n 12544 rfl rfl j
  funext ax; apply Fin.ext
  match ax with
  | ⟨0, _⟩ => exact lhs_dot_0 _ _
  | ⟨1, _⟩ => exact (lhs_dot_1 _ _).trans c2

/-- The right operand's index there is (j, d). -/
theorem rhs_dot (e : Fin 128) (d : Fin 64) (j : Fin 12544) :
    dot_S128x12544_S12544x64_S128x64_1_0_0_1_n_n.rhsIdx (ix2 e d)
      ((contrEquiv1 dot_S128x12544_S12544x64_S128x64_1_0_0_1_n_n 12544 rfl rfl).symm j) = ix2 j d := by
  have c2 := contrEquiv1_symm_val dot_S128x12544_S12544x64_S128x64_1_0_0_1_n_n 12544 rfl rfl j
  funext ax; apply Fin.ext
  match ax with
  | ⟨0, _⟩ => exact (rhs_dot_0 _ _).trans c2
  | ⟨1, _⟩ => exact rhs_dot_1 _ _

/-! ## The layout operations of the one-hot factor at an index -/

/-- A per-edge vector stood up as a column and spread along the chunk's rows reads the edge's entry. -/
theorem col_apply {α : Type} (v : S128.Idx → α) (e : Fin 128) (j : Fin 12544) :
    broadcastTo S128x12544 (shapeCast S128x1 v shapeCasts_S128_S128x1) broadcasts_S128x1_S128x12544 (ix2 e j)
      = v (ix1 e) := by
  rw [broadcastTo_apply _ _ (ix2 e j) (ix2 e (0 : Fin 1))
    (fun a => by match a with | ⟨0, _⟩ => rfl | ⟨1, _⟩ => rfl)]
  exact shapeCast_apply v _ _ (ix1 e) (by rw [Shape.rowMajor_val_one, Shape.rowMajor_val_two]; simp)

/-- A row of per-node values spread over the 128 edges reads the node's entry. -/
theorem row_apply {α : Type} (w : S1x12544.Idx → α) (e : Fin 128) (j : Fin 12544) :
    broadcastTo S128x12544 w broadcasts_S1x12544_S128x12544 (ix2 e j) = w (ix2 (0 : Fin 1) j) :=
  broadcastTo_apply _ _ _ _ (fun a => by match a with | ⟨0, _⟩ => rfl | ⟨1, _⟩ => rfl)

/-- The chunk's node ids: the chunk's first id plus the position in the chunk. -/
theorem ids_apply (s : BitVec 32) (j : Fin 12544) :
    addi (broadcast S1x12544 s) (iota .tc S1x12544 32 [1] iota_S1x12544_d1_w32) (ix2 (0 : Fin 1) j)
      = s + BitVec.ofNat 32 j.val := by
  show IntOp.addi s (iota .tc S1x12544 32 [1] iota_S1x12544_d1_w32 (ix2 (0 : Fin 1) j)) = _
  rw [iota_single_apply]; rfl

/-! ## One chunk's product at an index -/

/-- The product of a chunk's weighted one-hot factor with the chunk of the table, into a zero accumulator, read at
    edge e and feature d: the sum over the chunk's rows of the edge's weight where its column id is the row's node id,
    times the row's feature. -/
theorem chunk_apply (s : BitVec 32) (sn : Nat) (hs : s = BitVec.ofNat 32 sn) (v4 : IVec S128 32)
    (v8 : FVec Ideal S128 .f32) (xc : FVec Ideal S12544x64 .bf16) (e : Fin 128) (d : Fin 64) :
    matmul (F := Ideal) dot_S128x12544_S12544x64_S128x64_1_0_0_1_n_n none
      (truncf .bf16
        (select
          (cmpi .eq (broadcastTo S128x12544 (shapeCast S128x1 v4 shapeCasts_S128_S128x1) broadcasts_S128x1_S128x12544)
            (broadcastTo S128x12544 (addi (broadcast S1x12544 s) (iota .tc S1x12544 32 [1] iota_S1x12544_d1_w32))
              broadcasts_S1x12544_S128x12544))
          (broadcastTo S128x12544
            (shapeCast S128x1 (shapeCast S128x1 v8 shapeCasts_S128_S128x1) shapeCasts_S128x1_S128x1)
            broadcasts_S128x1_S128x12544)
          (broadcast S128x12544 (Scalar.ofBits (F := Ideal) .f32 0x00000000#32)))
        bitsLt_bf16_f32)
      xc (constant S128x64 .f32 0x00000000#32) (ix2 e d)
      = chunkMsg sn v4 v8 xc e d := by
  simp only [matmul]
  rw [Ideal.matmul_constant_zero_apply,
    ← Equiv.sum_comp (contrEquiv1 dot_S128x12544_S12544x64_S128x64_1_0_0_1_n_n 12544 rfl rfl).symm]
  unfold chunkMsg
  refine Finset.sum_congr rfl fun j _ => ?_
  rw [lhs_dot, rhs_dot, truncf_apply, select_apply, shapeCast_self]
  show Scalar.select (IntOp.cmpi .eq
      (broadcastTo S128x12544 (shapeCast S128x1 v4 shapeCasts_S128_S128x1) broadcasts_S128x1_S128x12544 (ix2 e j))
      (broadcastTo S128x12544 (addi (broadcast S1x12544 s) (iota .tc S1x12544 32 [1] iota_S1x12544_d1_w32))
        broadcasts_S1x12544_S128x12544 (ix2 e j))) _ _ * _ = _
  rw [col_apply, col_apply, row_apply, ids_apply, broadcast_apply, hs, ← BitVec.ofNat_add]
  by_cases h : v4 (ix1 e) = BitVec.ofNat 32 (sn + j.val)
  · rw [StableHlo.Predicate.cmpi_eq_iff.mpr h, select_one, if_pos h]
  · rw [eq_zero_of_ne_one (fun hc => h (StableHlo.Predicate.cmpi_eq_iff.mp hc)), select_zero, if_neg h]
    show Ideal.ofBits .f32 0x00000000#32 * _ = _
    rw [Ideal.ofBits_zero_f32]

/-! ## The accumulated message block at an index -/

/-- The message block of one grid point at edge e and feature d: zero plus the four chunks' products. -/
theorem msg_apply (v3 : Vec Ideal S128 .i32) (v7 : Vec Ideal S128 .f32) (v10 v27 v44 v61 : Vec Ideal S12544x64 .bf16)
    (e : Fin 128) (d : Fin 64) :
    k0_pay10 (F := Ideal) (k0_pay4 v3) (k0_pay6 v7) (k0_pay7 v3 v7 v10) (k0_pay8 v27) (k0_pay9 v3 v7) v44 v61 (ix2 e d)
      = (((0 + chunkMsg 0 v3 v7 v10 e d) + chunkMsg 12544 v3 v7 v27 e d) + chunkMsg 25088 v3 v7 v44 e d)
          + chunkMsg 37632 v3 v7 v61 e d := by
  have h4 : (k0_pay4 (F := Ideal) v3 : IVec S128 32) = v3 := shapeCast_self _ _
  have h6 : (k0_pay6 (F := Ideal) v7 : FVec Ideal S128 .f32) = v7 := shapeCast_self _ _
  have h8 : (k0_pay8 (F := Ideal) v27 : FVec Ideal S12544x64 .bf16) = v27 := shapeCast_self _ _
  unfold k0_pay10 k0_pay7 k0_pay9
  rw [h4, h6, h8]
  dsimp only
  rw [shapeCast_self v10, shapeCast_self v44, shapeCast_self v61, truncf_apply, addf_apply, addf_apply, addf_apply,
    addf_apply, broadcast_apply, chunk_apply 0#32 0 rfl, chunk_apply 12544#32 12544 rfl,
    chunk_apply 25088#32 25088 rfl, chunk_apply 37632#32 37632 rfl]
  show Ideal.ofBits .f32 0x00000000#32 + _ + _ + _ + _ = _
  rw [Ideal.ofBits_zero_f32]

end Cert.KernelIdeal.GinPay

end
-- ==== Proof.ScatterPay.lean ====
/-
  The scatter half of one block of 128 edges, read at an index.

  Each 12544-row chunk of the carried output block receives, added to what it held, the product of the chunk's one-hot
  matrix with the 128 × 64 block of edge messages. The one-hot matrix has, at (p, e), the float of the 32-bit comparison of
  the node id s + p (a column of consecutive ids starting at the chunk's first id s) with edge e's row id: exactly one
  where the two words agree and zero elsewhere, and unchanged by narrowing the float format. The product into a zero
  accumulator is the plain sum over the 128 edges, and the two shape casts around the sum only drop and add a unit axis.
  So at (0, p, d) each chunk's new value is the old value plus the sum over the edges e of rowHit s p e times the
  message of e at feature d.
-/
import proofs.«418629_j48507360641133_4_alg».proof.Proof.Gen.KernelIdeal.Skeleton
import proofs.«418629_j48507360641133_4_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

open scoped BigOperators

namespace Cert.KernelIdeal.GinPay2

open Idealize.ShloMosaic Idealize.ShloMosaic.ValueIdx Cert.KernelIdeal Cert.KernelIdeal.Gen Cert.GinSpec

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot entry -/

/-- A one-bit word, widened to 32 bits and read as a signed integer, is one when the bit is set and zero when it is not. -/
theorem bit_toEReal (b : BitVec 1) : (((b.setWidth 32).toInt : ℝ) : EReal) = if b = 1#1 then 1 else 0 := by
  rcases BitVec.eq_zero_or_eq_one b with h | h
  · subst h
    have h0 : ((0#1 : BitVec 1).setWidth 32).toInt = 0 := by decide
    rw [h0]; simp
  · subst h
    have h1 : ((1#1 : BitVec 1).setWidth 32).toInt = 1 := by decide
    rw [h1]; simp

/-- The one-hot matrix of the chunk whose first node id is the word `s` = `sn`: at (p, e) it is one where node id
    `sn + p` is edge `e`'s row id as 32-bit words, zero elsewhere. -/
theorem onehot_apply (s : BitVec 32) (sn : Nat) (hs : s = BitVec.ofNat 32 sn) (v6 : IVec S128 32)
    (hi : S12544x1.Iotas .tc 32 [0]) (hc : S128.ShapeCasts S1x128) (hb1 : S12544x1.Broadcasts S12544x128)
    (hb2 : S1x128.Broadcasts S12544x128) (h1 : 1 < 32) (hbits : FTy.bits .bf16 < FTy.bits .f32)
    (p : Fin 12544) (e : Fin 128) :
    (truncf .bf16 (sitofp .f32 (extui 32 (cmpi .eq
        (broadcastTo S12544x128 (addi (broadcast S12544x1 s) (iota .tc S12544x1 32 [0] hi)) hb1)
        (broadcastTo S12544x128 (shapeCast S1x128 v6 hc) hb2)) h1) : FVec Ideal S12544x128 .f32) hbits
        : FVec Ideal S12544x128 .bf16) (ix2 p e)
      = rowHit sn v6 p e := by
  rw [truncf_apply, sitofp_apply, extui_apply]
  show ((((IntOp.cmpi .eq
      (broadcastTo S12544x128 (addi (broadcast S12544x1 s) (iota .tc S12544x1 32 [0] hi)) hb1 (ix2 p e))
      (broadcastTo S12544x128 (shapeCast S1x128 v6 hc) hb2 (ix2 p e))).setWidth 32).toInt : ℝ) : EReal) = _
  rw [broadcastTo_a1_ab_apply, broadcastTo_1b_ab_apply, shapeCast_a_1a_apply, bit_toEReal]
  show (if IntOp.cmpi .eq (IntOp.addi s (iota .tc S12544x1 32 [0] hi (ix2 p (0 : Fin 1)))) (v6 (ix1 e)) = 1#1 then (1 : EReal) else 0) = _
  rw [iota_single_apply]
  have hw : IntOp.addi s (BitVec.ofNat 32 p.val) = BitVec.ofNat 32 (sn + p.val) := by
    rw [hs, BitVec.ofNat_add]
    rfl
  show (if IntOp.cmpi .eq (IntOp.addi s (BitVec.ofNat 32 p.val)) (v6 (ix1 e)) = 1#1 then (1 : EReal) else 0) = _
  rw [hw]
  unfold rowHit
  by_cases hEq : BitVec.ofNat 32 (sn + p.val) = v6 (ix1 e)
  · rw [if_pos (StableHlo.Predicate.cmpi_eq_iff.mpr hEq), if_pos hEq]
  · rw [if_neg (fun hc' => hEq (StableHlo.Predicate.cmpi_eq_iff.mp hc')), if_neg hEq]

/-! ## The product with the message block -/

/-- The left operand's row is the result's row. -/
theorem lhs_0 (i : S12544x64.Idx) (q : dot_S12544x128_S128x64_S12544x64_1_0_0_1_n_n.contr.Idx) :
    (dot_S12544x128_S128x64_S12544x64_1_0_0_1_n_n.lhsIdx i q 0).val = (i 0).val := by
  unfold DotDims.lhsIdx
  rw [dif_neg (show ¬(0 : Fin S12544x128.rank) ∈ dot_S12544x128_S128x64_S12544x64_1_0_0_1_n_n.lhsBatch by decide),
    dif_pos (show (0 : Fin S12544x128.rank) ∈ dot_S12544x128_S128x64_S12544x64_1_0_0_1_n_n.lhsNonContracting by decide)]
  rfl

/-- The left operand's column is the contracted edge. -/
theorem lhs_1 (i : S12544x64.Idx) (q : dot_S12544x128_S128x64_S12544x64_1_0_0_1_n_n.contr.Idx) :
    (dot_S12544x128_S128x64_S12544x64_1_0_0_1_n_n.lhsIdx i q 1).val = (q ⟨0, by decide⟩).val :=
  dot_S12544x128_S128x64_S12544x64_1_0_0_1_n_n.lhsIdx_val_of_single rfl i q

/-- The right operand's row is the contracted edge. -/
theorem rhs_0 (i : S12544x64.Idx) (q : dot_S12544x128_S128x64_S12544x64_1_0_0_1_n_n.contr.Idx) :
    (dot_S12544x128_S128x64_S12544x64_1_0_0_1_n_n.rhsIdx i q 0).val = (q ⟨0, by decide⟩).val :=
  dot_S12544x128_S128x64_S12544x64_1_0_0_1_n_n.rhsIdx_val_of_single rfl i q

/-- The right operand's column is the result's column. -/
theorem rhs_1 (i : S12544x64.Idx) (q : dot_S12544x128_S128x64_S12544x64_1_0_0_1_n_n.contr.Idx) :
    (dot_S12544x128_S128x64_S12544x64_1_0_0_1_n_n.rhsIdx i q 1).val = (i 1).val := by
  unfold DotDims.rhsIdx
  rw [dif_neg (show ¬(1 : Fin S128x64.rank) ∈ dot_S12544x128_S128x64_S12544x64_1_0_0_1_n_n.rhsBatch by decide),
    dif_pos (show (1 : Fin S128x64.rank) ∈ dot_S12544x128_S128x64_S12544x64_1_0_0_1_n_n.rhsNonContracting by decide)]
  rfl

/-- A 12544 × 128 matrix times the 128 × 64 message block, into a zero accumulator, is at (p, d) the sum over the
    128 edges of the matrix's entry at (p, e) times the message of e at d. -/
theorem matmul_zero_apply (L : FVec Ideal S12544x128 .bf16) (v78 : FVec Ideal S128x64 .bf16) (p : Fin 12544) (d : Fin 64) :
    matmul (F := Ideal) dot_S12544x128_S128x64_S12544x64_1_0_0_1_n_n none L v78 (constant (F := Ideal) S12544x64 .f32 0x00000000#32) (ix2 p d)
      = ∑ e : Fin 128, L (ix2 p e) * v78 (ix2 e d) := by
  simp only [matmul]
  rw [Ideal.matmul_constant_zero_apply, ← Equiv.sum_comp (contrEquiv1 dot_S12544x128_S128x64_S12544x64_1_0_0_1_n_n 128 rfl rfl).symm]
  refine Finset.sum_congr rfl fun k _ => ?_
  have hk := contrEquiv1_symm_val dot_S12544x128_S128x64_S12544x64_1_0_0_1_n_n 128 rfl rfl k
  have el : dot_S12544x128_S128x64_S12544x64_1_0_0_1_n_n.lhsIdx (ix2 p d) ((contrEquiv1 dot_S12544x128_S128x64_S12544x64_1_0_0_1_n_n 128 rfl rfl).symm k) = ix2 p k :=
    funext fun a => Fin.ext (by
      match a with
      | ⟨0, _⟩ => exact lhs_0 _ _
      | ⟨1, _⟩ => exact (lhs_1 _ _).trans hk)
  have er : dot_S12544x128_S128x64_S12544x64_1_0_0_1_n_n.rhsIdx (ix2 p d) ((contrEquiv1 dot_S12544x128_S128x64_S12544x64_1_0_0_1_n_n 128 rfl rfl).symm k) = ix2 k d :=
    funext fun a => Fin.ext (by
      match a with
      | ⟨0, _⟩ => exact (rhs_0 _ _).trans hk
      | ⟨1, _⟩ => exact rhs_1 _ _)
  rw [el, er]

/-! ## The four chunks' payloads -/

/-- What a chunk's payload is before it is read: the old rows with the unit axis dropped, plus the one-hot product,
    with the unit axis put back. Read at (0, p, d) it is the old value plus the product's value at (p, d). -/
theorem chunk_apply (L : FVec Ideal S12544x128 .bf16) (v78 : FVec Ideal S128x64 .bf16) (old : Vec Ideal S1x12544x64 .f32)
    (h1 : S1x12544x64.ShapeCasts S12544x64) (h2 : S12544x64.ShapeCasts S1x12544x64) (p : Fin 12544) (d : Fin 64) :
    (shapeCast S1x12544x64 (addf (shapeCast S12544x64 old h1 : FVec Ideal S12544x64 .f32)
        (matmul (F := Ideal) dot_S12544x128_S128x64_S12544x64_1_0_0_1_n_n none L v78 (constant (F := Ideal) S12544x64 .f32 0x00000000#32))) h2
        : FVec Ideal S1x12544x64 .f32) (ix3 (0 : Fin 1) p d)
      = old (ix3 (0 : Fin 1) p d) + ∑ e : Fin 128, L (ix2 p e) * v78 (ix2 e d) := by
  rw [shapeCast_ab_1ab_apply, addf_apply, shapeCast_1ab_ab_apply, matmul_zero_apply]

/-- The chunk of node ids 0 … 12543: its one-hot matrix arrives already built, its accumulator is the zero block. -/
theorem pay12_apply (v6 : IVec S128 32) (v78 : FVec Ideal S128x64 .bf16) (v90 : Vec Ideal S1x12544x64 .f32) (p : Fin 12544) (d : Fin 64) :
    k0_pay12 (F := Ideal) v78 (k0_pay11 v6) (constant S12544x64 .f32 0x00000000#32) v90 (ix3 (0 : Fin 1) p d)
      = v90 (ix3 (0 : Fin 1) p d) + ∑ e : Fin 128, rowHit 0 v6 p e * v78 (ix2 e d) := by
  unfold k0_pay12
  refine (chunk_apply (k0_pay11 v6) v78 v90 _ _ p d).trans ?_
  refine congrArg (v90 (ix3 (0 : Fin 1) p d) + ·) (Finset.sum_congr rfl fun e _ => ?_)
  unfold k0_pay11
  exact congrArg (· * v78 (ix2 e d)) (onehot_apply 0#32 0 rfl v6 _ _ _ _ _ _ p e)

/-- The chunk of node ids 12544 … 25087. -/
theorem pay13_apply (v6 : IVec S128 32) (v78 : FVec Ideal S128x64 .bf16) (v107 : Vec Ideal S1x12544x64 .f32) (p : Fin 12544) (d : Fin 64) :
    k0_pay13 (F := Ideal) v6 v78 v107 (ix3 (0 : Fin 1) p d) = v107 (ix3 (0 : Fin 1) p d) + ∑ e : Fin 128, rowHit 12544 v6 p e * v78 (ix2 e d) := by
  unfold k0_pay13
  refine (chunk_apply _ v78 v107 _ _ p d).trans ?_
  refine congrArg (v107 (ix3 (0 : Fin 1) p d) + ·) (Finset.sum_congr rfl fun e _ => ?_)
  exact congrArg (· * v78 (ix2 e d)) (onehot_apply 12544#32 12544 rfl v6 _ _ _ _ _ _ p e)

/-- The chunk of node ids 25088 … 37631: the sum is formed first and the unit axis is added by a second payload. -/
theorem pay14_apply (v6 : IVec S128 32) (v78 : FVec Ideal S128x64 .bf16) (v124 : Vec Ideal S1x12544x64 .f32) (p : Fin 12544) (d : Fin 64) :
    k0_pay1 (F := Ideal) (k0_pay14 v6 v78 v124) (ix3 (0 : Fin 1) p d) = v124 (ix3 (0 : Fin 1) p d) + ∑ e : Fin 128, rowHit 25088 v6 p e * v78 (ix2 e d) := by
  unfold k0_pay1 k0_pay14
  refine (chunk_apply _ v78 v124 _ _ p d).trans ?_
  refine congrArg (v124 (ix3 (0 : Fin 1) p d) + ·) (Finset.sum_congr rfl fun e _ => ?_)
  exact congrArg (· * v78 (ix2 e d)) (onehot_apply 25088#32 25088 rfl v6 _ _ _ _ _ _ p e)

/-- The chunk of node ids 37632 … 50175. -/
theorem pay2_apply (v6 : IVec S128 32) (v78 : FVec Ideal S128x64 .bf16) (v141 : Vec Ideal S1x12544x64 .f32) (p : Fin 12544) (d : Fin 64) :
    k0_pay2 (F := Ideal) v6 v78 v141 (ix3 (0 : Fin 1) p d) = v141 (ix3 (0 : Fin 1) p d) + ∑ e : Fin 128, rowHit 37632 v6 p e * v78 (ix2 e d) := by
  unfold k0_pay2
  refine (chunk_apply _ v78 v141 _ _ p d).trans ?_
  refine congrArg (v141 (ix3 (0 : Fin 1) p d) + ·) (Finset.sum_congr rfl fun e _ => ?_)
  exact congrArg (· * v78 (ix2 e d)) (onehot_apply 37632#32 37632 rfl v6 _ _ _ _ _ _ p e)

end Cert.KernelIdeal.GinPay2

end
-- ==== Proof.Pieces.lean ====
/-
  What one grid point leaves in the carried output block, as a function of the point's input blocks.

  The body writes the block in four 12544-row chunks. Chunk k's store holds, at row p and feature d, what the chunk
  held before plus the one-hot product of node id 12544·k + p against the message block; the message block is the
  gather's four-chunk one-hot product. By the algebra of one block this is: the previous contents plus the block's
  delta at node 12544·k + p. The four chunks tile the block, so the whole block ends at previous + delta. At the first
  point of each core's row the body first stores zeros over the whole block, each chunk reads those zeros back, and
  the block ends at the delta alone.
-/
import proofs.«418629_j48507360641133_4_alg».proof.Proof.Gen.KernelIdeal.Frame
import proofs.«418629_j48507360641133_4_alg».proof.Proof.Algebra
import proofs.«418629_j48507360641133_4_alg».proof.Proof.GatherPay
import proofs.«418629_j48507360641133_4_alg».proof.Proof.ScatterPay
import Idealize.ShloMosaic.Lib.Pipeline.Value
import Idealize.ShloMosaic.Lib.Pipeline.CanonAppend
import Idealize.ShloMosaic.Lib.ValueIdx
import Idealize.ShloMosaic.Lib.Tactic
import Idealize.ShloMosaic.PureOps.Ideal.Laws

set_option maxRecDepth 16384

noncomputable section

namespace Cert.KernelIdeal.GinPieces

open Idealize.ShloMosaic Idealize.ShloMosaic.TcCoe Idealize.ShloMosaic.ValueIdx Idealize.SL.Sem
open Cert.KernelIdeal Cert.KernelIdeal.Gen Cert.GinSpec
open Cert.KernelIdeal.GinPay Cert.KernelIdeal.GinPay2

theorem hz1 : (![0] : Fin 1 → Nat) = fun _ => 0 := funext fun a => by fin_cases a; rfl
theorem hz3 : (![0, 0, 0] : Fin 3 → Nat) = fun _ => 0 := funext fun a => by fin_cases a <;> rfl

/-- A 12544-row load of the padded table from row `s` is that chunk of the table. -/
theorem ld_chunk (s : Nat) (hs : s + 12544 ≤ 50176) (x3 : Vec Ideal S50176x64 .bf16)
    (inb : ∀ a, (![s, 0] : Fin 2 → Nat) a + S12544x64.size a ≤ S50176x64.size a) :
    View.ld x3 (Rect.unit (s := S50176x64) ![s, 0] S12544x64.size inb) = chunkOf s hs x3 := by
  funext j
  unfold View.ld chunkOf
  congr 1
  funext a
  apply Fin.ext
  match a with
  | ⟨0, _⟩ => show s + 1 * (j 0).val = s + (j 0).val; omega
  | ⟨1, _⟩ => show 0 + 1 * (j 1).val = (j 1).val; omega

/-- The delta one block of edges adds to the carried output block, at the block's own index. -/
def delta (x0 x1 : Vec Ideal S128 .i32) (x2 : Vec Ideal S128 .f32) (x3 : Vec Ideal S50176x64 .bf16) :
    S1x50176x64.Idx → EReal :=
  fun y => blockDelta x0 x1 x2 x3 (y 1).val (y 2)

/-- The message block the gather leaves, as the kernel's term over the point's loads. -/
abbrev msgv (x1 : Vec Ideal S128 .i32) (x2 : Vec Ideal S128 .f32) (x3 : Vec Ideal S50176x64 .bf16) : FVec Ideal S128x64 .bf16 :=
  k0_pay10 (F := Ideal) (k0_pay4 x1) (k0_pay6 x2)
    (k0_pay7 x1 x2 (View.ld x3 (Rect.unit (s := S50176x64) ![0, 0] S12544x64.size inb_S50176x64_S12544x64_0_0)))
    (k0_pay8 (View.ld x3 (Rect.unit (s := S50176x64) ![12544, 0] S12544x64.size inb_S50176x64_S12544x64_12544_0)))
    (k0_pay9 x1 x2)
    (View.ld x3 (Rect.unit (s := S50176x64) ![25088, 0] S12544x64.size inb_S50176x64_S12544x64_25088_0))
    (View.ld x3 (Rect.unit (s := S50176x64) ![37632, 0] S12544x64.size inb_S50176x64_S12544x64_37632_0))

/-- The scatter of chunk `s` after the gather: node `s + p`'s share of the block. -/
theorem hit_msgv (s : Nat) (x0 x1 : Vec Ideal S128 .i32) (x2 : Vec Ideal S128 .f32) (x3 : Vec Ideal S50176x64 .bf16)
    (p : Fin 12544) (d : Fin 64) :
    ∑ e : Fin 128, rowHit s x0 p e * msgv x1 x2 x3 (ix2 e d) = blockDelta x0 x1 x2 x3 (s + p.val) d := by
  unfold msgv
  simp only [msg_apply]
  rw [ld_chunk 0 (by omega), ld_chunk 12544 (by omega), ld_chunk 25088 (by omega), ld_chunk 37632 (by omega)]
  exact scatter_gather s x0 x1 x2 x3 p d

theorem pay5_eq (x0 : Vec Ideal S128 .i32) : k0_pay5 (F := Ideal) x0 = x0 := by
  unfold k0_pay5; exact shapeCast_self _ _

/-- Chunk 0's store, over whatever the chunk held. -/
theorem chunk0_val (x0 x1 : Vec Ideal S128 .i32) (x2 : Vec Ideal S128 .f32) (x3 : Vec Ideal S50176x64 .bf16)
    (vp : Vec Ideal S1x12544x64 .f32) (x : S1x12544x64.Idx) :
    k0_pay12 (F := Ideal) (msgv x1 x2 x3) (k0_pay11 (k0_pay5 x0)) (constant S12544x64 .f32 0x00000000#32) vp x
      = vp x + blockDelta x0 x1 x2 x3 (0 + (x 1).val) (x 2) := by
  obtain ⟨a, p, d, rfl⟩ : ∃ (a : Fin 1) (p : Fin 12544) (d : Fin 64), x = ix3 a p d := ⟨x 0, x 1, x 2, eq_ix3 x⟩
  obtain rfl : a = 0 := Subsingleton.elim _ _
  rw [pay12_apply, pay5_eq, hit_msgv]

/-- Chunk 1's store. -/
theorem chunk1_val (x0 x1 : Vec Ideal S128 .i32) (x2 : Vec Ideal S128 .f32) (x3 : Vec Ideal S50176x64 .bf16)
    (vp : Vec Ideal S1x12544x64 .f32) (x : S1x12544x64.Idx) :
    k0_pay13 (F := Ideal) (k0_pay5 x0) (msgv x1 x2 x3) vp x
      = vp x + blockDelta x0 x1 x2 x3 (12544 + (x 1).val) (x 2) := by
  obtain ⟨a, p, d, rfl⟩ : ∃ (a : Fin 1) (p : Fin 12544) (d : Fin 64), x = ix3 a p d := ⟨x 0, x 1, x 2, eq_ix3 x⟩
  obtain rfl : a = 0 := Subsingleton.elim _ _
  rw [pay13_apply, pay5_eq, hit_msgv]

/-- Chunk 2's store. -/
theorem chunk2_val (x0 x1 : Vec Ideal S128 .i32) (x2 : Vec Ideal S128 .f32) (x3 : Vec Ideal S50176x64 .bf16)
    (vp : Vec Ideal S1x12544x64 .f32) (x : S1x12544x64.Idx) :
    k0_pay1 (F := Ideal) (k0_pay14 (k0_pay5 x0) (msgv x1 x2 x3) vp) x
      = vp x + blockDelta x0 x1 x2 x3 (25088 + (x 1).val) (x 2) := by
  obtain ⟨a, p, d, rfl⟩ : ∃ (a : Fin 1) (p : Fin 12544) (d : Fin 64), x = ix3 a p d := ⟨x 0, x 1, x 2, eq_ix3 x⟩
  obtain rfl : a = 0 := Subsingleton.elim _ _
  rw [pay14_apply, pay5_eq, hit_msgv]

/-- Chunk 3's store. -/
theorem chunk3_val (x0 x1 : Vec Ideal S128 .i32) (x2 : Vec Ideal S128 .f32) (x3 : Vec Ideal S50176x64 .bf16)
    (vp : Vec Ideal S1x12544x64 .f32) (x : S1x12544x64.Idx) :
    k0_pay2 (F := Ideal) (k0_pay5 x0) (msgv x1 x2 x3) vp x
      = vp x + blockDelta x0 x1 x2 x3 (37632 + (x 1).val) (x 2) := by
  obtain ⟨a, p, d, rfl⟩ : ∃ (a : Fin 1) (p : Fin 12544) (d : Fin 64), x = ix3 a p d := ⟨x 0, x 1, x 2, eq_ix3 x⟩
  obtain rfl : a = 0 := Subsingleton.elim _ _
  rw [pay2_apply, pay5_eq, hit_msgv]

/-- The delta at a chunk's embedded index: the chunk's first row plus the row inside the chunk. -/
theorem delta_emb (s : Nat) (x0 x1 : Vec Ideal S128 .i32) (x2 : Vec Ideal S128 .f32) (x3 : Vec Ideal S50176x64 .bf16)
    (inb : ∀ a, (![0, s, 0] : Fin 3 → Nat) a + (![1, 12544, 64] : Fin 3 → Nat) a ≤ S1x50176x64.size a)
    (x : (Rect.unit (s := S1x50176x64) ![0, s, 0] ![1, 12544, 64] inb).shape.Idx) :
    delta x0 x1 x2 x3 ((Rect.unit (s := S1x50176x64) ![0, s, 0] ![1, 12544, 64] inb).emb x)
      = blockDelta x0 x1 x2 x3 (s + (x 1).val) (x 2) := by
  unfold delta
  congr 1
  · show s + 1 * (x 1).val = s + (x 1).val; omega
  · apply Fin.ext; show 0 + 1 * (x 2).val = (x 2).val; omega

/-- CASE B (every point but the first of a core's row): the block ends at what it held plus the point's delta. -/
theorem out_B (c : Dev nD) (i : grid0.Coords) (arg2 : Memref sig .tc .vmem S128 .i32) (harg2 : arg2.IsWhole) (arg3 : Memref sig .tc .vmem S128 .i32) (harg3 : arg3.IsWhole) (arg4 : Memref sig .tc .vmem S128 .f32) (harg4 : arg4.IsWhole) (arg5 : Memref sig .tc .vmem S50176x64 .bf16) (harg5 : arg5.IsWhole) (arg6 : Memref sig .tc .vmem S1x50176x64 .f32) (harg6 : arg6.IsWhole) (hc0 : ¬cond0_0 i)
    (x0 : Vec Ideal S128 .i32) (x1 : Vec Ideal S128 .i32) (x2 : Vec Ideal S128 .f32) (x3 : Vec Ideal S50176x64 .bf16) (xo4 : Vec Ideal S1x50176x64 .f32) :
    out0_B_4 c i arg2 harg2 arg3 harg3 arg4 harg4 arg5 harg5 arg6 harg6 hc0 x0 x1 x2 x3 xo4
      = fun y => xo4 y + delta x0 x1 x2 x3 y := by
  unfold out0_B_4
  rw [View.read_writes_eq_canon _ _ _ (cover0_B_4 c i arg2 harg2 arg3 harg3 arg4 harg4 arg5 harg5 arg6 harg6 hc0 x0 x1 x2 x3 xo4)]
  funext y
  refine View.canon_apply_of_pieces (fun y => xo4 y + delta x0 x1 x2 x3 y) _ ?_ y
    (cover0_B_4 c i arg2 harg2 arg3 harg3 arg4 harg4 arg5 harg5 arg6 harg6 hc0 x0 x1 x2 x3 xo4 y)
  unfold kernelRun0_B
  dsimp only
  sl_unfold_words
  simp only [View.readAt_eq_ld, harg2.read_unread, harg3.read_unread, harg4.read_unread, harg5.read_unread, harg6.read_unread,
    View.ld_unit_zero (S := S128) hz1]
  intro p hp x
  simp only [List.mem_cons, List.mem_nil_iff, or_false] at hp
  rcases hp with rfl | rfl | rfl | rfl
  · refine (chunk3_val x0 x1 x2 x3 _ x).trans ?_
    show _ = xo4 _ + delta x0 x1 x2 x3 _
    rw [delta_emb]; rfl
  · refine (chunk2_val x0 x1 x2 x3 _ x).trans ?_
    show _ = xo4 _ + delta x0 x1 x2 x3 _
    rw [delta_emb]; rfl
  · refine (chunk1_val x0 x1 x2 x3 _ x).trans ?_
    show _ = xo4 _ + delta x0 x1 x2 x3 _
    rw [delta_emb]; rfl
  · refine (chunk0_val x0 x1 x2 x3 _ x).trans ?_
    show _ = xo4 _ + delta x0 x1 x2 x3 _
    rw [delta_emb]; rfl

/-- The zero block the first point of a core's row stores. -/
theorem pay3_zero (y : S1x50176x64.Idx) : k0_pay3 (F := Ideal) y = 0 := by
  unfold k0_pay3
  show (Ideal.ofBits .f32 0x00000000#32 : EReal) = 0
  exact Ideal.ofBits_zero_f32

/-- A load that meets none of the chunk stores made so far reads the zeros stored over the whole block before them. -/
theorem readCov_over_zero (v : View sig .tc .vmem S1x50176x64 .f32)
    (inb : ∀ a, (![0, 0, 0] : Fin 3 → Nat) a + S1x50176x64.size a ≤ S1x50176x64.size a) (B : LoadRect S1x50176x64) :
    ∀ (L : List (View.Piece (Elt Ideal) S1x50176x64 .f32)), (∀ p ∈ L, Disjoint p.1.set B.set) →
      v.readCov (L ++ [⟨Rect.unit (s := S1x50176x64) ![0, 0, 0] S1x50176x64.size inb, k0_pay3 (F := Ideal)⟩]) B = fun _ => (0 : EReal)
  | [], _ => by
    rw [List.nil_append, View.readCov_eq_canon', View.canon_unit_zero hz3]
    funext j
    exact pay3_zero _
  | p :: L, h => by
    rw [List.cons_append, View.readCov_cons_of_disjoint _ _ _ _ (h p List.mem_cons_self)]
    exact readCov_over_zero v inb B L fun q hq => h q (List.mem_cons_of_mem _ hq)

/-! ### The first point of a core's row, abstractly

The body stores zeros over the whole block, then for each chunk in turn loads the chunk, and stores a payload that is
a function of what it loaded. Each load meets only the zeros (the chunks stored before it are other chunks), so each
payload is its function at the zero chunk; if that is the target function `G` on the chunk, the block ends at `G`. -/

section FirstPoint

variable (v : View sig .tc .vmem S1x50176x64 .f32)
variable (i0 : ∀ a, (![0, 0, 0] : Fin 3 → Nat) a + (![1, 12544, 64] : Fin 3 → Nat) a ≤ S1x50176x64.size a)
variable (i1 : ∀ a, (![0, 12544, 0] : Fin 3 → Nat) a + (![1, 12544, 64] : Fin 3 → Nat) a ≤ S1x50176x64.size a)
variable (i2 : ∀ a, (![0, 25088, 0] : Fin 3 → Nat) a + (![1, 12544, 64] : Fin 3 → Nat) a ≤ S1x50176x64.size a)
variable (i3 : ∀ a, (![0, 37632, 0] : Fin 3 → Nat) a + (![1, 12544, 64] : Fin 3 → Nat) a ≤ S1x50176x64.size a)
variable (iw : ∀ a, (![0, 0, 0] : Fin 3 → Nat) a + S1x50176x64.size a ≤ S1x50176x64.size a)
variable (P0 P1 P2 P3 : Vec Ideal S1x12544x64 .f32 → Vec Ideal S1x12544x64 .f32)

/-- The zeroing store, and the four chunk stores, each over the stores before it. -/
def pZ : View.Piece (Elt Ideal) S1x50176x64 .f32 := ⟨Rect.unit (s := S1x50176x64) ![0, 0, 0] S1x50176x64.size iw, k0_pay3 (F := Ideal)⟩
def pA0 : View.Piece (Elt Ideal) S1x50176x64 .f32 :=
  ⟨Rect.unit (s := S1x50176x64) ![0, 0, 0] ![1, 12544, 64] i0,
    P0 (v.readCov [pZ iw] (Rect.unit (s := S1x50176x64) ![0, 0, 0] ![1, 12544, 64] i0).toLoadRect)⟩
def pA1 : View.Piece (Elt Ideal) S1x50176x64 .f32 :=
  ⟨Rect.unit (s := S1x50176x64) ![0, 12544, 0] ![1, 12544, 64] i1,
    P1 (v.readCov [pA0 v i0 iw P0, pZ iw] (Rect.unit (s := S1x50176x64) ![0, 12544, 0] ![1, 12544, 64] i1).toLoadRect)⟩
def pA2 : View.Piece (Elt Ideal) S1x50176x64 .f32 :=
  ⟨Rect.unit (s := S1x50176x64) ![0, 25088, 0] ![1, 12544, 64] i2,
    P2 (v.readCov [pA1 v i0 i1 iw P0 P1, pA0 v i0 iw P0, pZ iw] (Rect.unit (s := S1x50176x64) ![0, 25088, 0] ![1, 12544, 64] i2).toLoadRect)⟩
def pA3 : View.Piece (Elt Ideal) S1x50176x64 .f32 :=
  ⟨Rect.unit (s := S1x50176x64) ![0, 37632, 0] ![1, 12544, 64] i3,
    P3 (v.readCov [pA2 v i0 i1 i2 iw P0 P1 P2, pA1 v i0 i1 iw P0 P1, pA0 v i0 iw P0, pZ iw]
      (Rect.unit (s := S1x50176x64) ![0, 37632, 0] ![1, 12544, 64] i3).toLoadRect)⟩

theorem pA0_fst : (pA0 v i0 iw P0).1 = Rect.unit (s := S1x50176x64) ![0, 0, 0] ![1, 12544, 64] i0 := rfl
theorem pA1_fst : (pA1 v i0 i1 iw P0 P1).1 = Rect.unit (s := S1x50176x64) ![0, 12544, 0] ![1, 12544, 64] i1 := rfl
theorem pA2_fst : (pA2 v i0 i1 i2 iw P0 P1 P2).1 = Rect.unit (s := S1x50176x64) ![0, 25088, 0] ![1, 12544, 64] i2 := rfl

theorem load0 : v.readCov [pZ iw] (Rect.unit (s := S1x50176x64) ![0, 0, 0] ![1, 12544, 64] i0).toLoadRect = fun _ => (0 : EReal) :=
  readCov_over_zero v iw _ [] (fun q hq => absurd hq List.not_mem_nil)

theorem load1 : v.readCov [pA0 v i0 iw P0, pZ iw] (Rect.unit (s := S1x50176x64) ![0, 12544, 0] ![1, 12544, 64] i1).toLoadRect
    = fun _ => (0 : EReal) :=
  readCov_over_zero v iw _ [pA0 v i0 iw P0] (fun q hq => by
    rw [List.mem_singleton] at hq; subst hq
    rw [pA0_fst]; exact Rect.unit_disjoint 1 (by decide))

theorem load2 : v.readCov [pA1 v i0 i1 iw P0 P1, pA0 v i0 iw P0, pZ iw]
    (Rect.unit (s := S1x50176x64) ![0, 25088, 0] ![1, 12544, 64] i2).toLoadRect = fun _ => (0 : EReal) :=
  readCov_over_zero v iw _ [pA1 v i0 i1 iw P0 P1, pA0 v i0 iw P0] (fun q hq => by
    rcases List.mem_cons.mp hq with rfl | hq
    · rw [pA1_fst]; exact Rect.unit_disjoint 1 (by decide)
    · rw [List.mem_singleton] at hq; subst hq
      rw [pA0_fst]; exact Rect.unit_disjoint 1 (by decide))

theorem load3 : v.readCov [pA2 v i0 i1 i2 iw P0 P1 P2, pA1 v i0 i1 iw P0 P1, pA0 v i0 iw P0, pZ iw]
    (Rect.unit (s := S1x50176x64) ![0, 37632, 0] ![1, 12544, 64] i3).toLoadRect = fun _ => (0 : EReal) :=
  readCov_over_zero v iw _ [pA2 v i0 i1 i2 iw P0 P1 P2, pA1 v i0 i1 iw P0 P1, pA0 v i0 iw P0] (fun q hq => by
    rcases List.mem_cons.mp hq with rfl | hq
    · rw [pA2_fst]; exact Rect.unit_disjoint 1 (by decide)
    · rcases List.mem_cons.mp hq with rfl | hq
      · rw [pA1_fst]; exact Rect.unit_disjoint 1 (by decide)
      · rw [List.mem_singleton] at hq; subst hq
        rw [pA0_fst]; exact Rect.unit_disjoint 1 (by decide))

/-- The block after the first point: `G`, when each chunk's payload at the zero chunk is `G` on that chunk. -/
theorem first_point_canon (G : S1x50176x64.Idx → EReal)
    (h0 : ∀ x, P0 (fun _ => (0 : EReal)) x = G ((Rect.unit (s := S1x50176x64) ![0, 0, 0] ![1, 12544, 64] i0).emb x))
    (h1 : ∀ x, P1 (fun _ => (0 : EReal)) x = G ((Rect.unit (s := S1x50176x64) ![0, 12544, 0] ![1, 12544, 64] i1).emb x))
    (h2 : ∀ x, P2 (fun _ => (0 : EReal)) x = G ((Rect.unit (s := S1x50176x64) ![0, 25088, 0] ![1, 12544, 64] i2).emb x))
    (h3 : ∀ x, P3 (fun _ => (0 : EReal)) x = G ((Rect.unit (s := S1x50176x64) ![0, 37632, 0] ![1, 12544, 64] i3).emb x))
    (y : S1x50176x64.Idx) :
    View.canon [pA3 v i0 i1 i2 i3 iw P0 P1 P2 P3, pA2 v i0 i1 i2 iw P0 P1 P2, pA1 v i0 i1 iw P0 P1, pA0 v i0 iw P0, pZ iw] y = G y := by
  refine View.canon_append_of_pieces (Val := Elt Ideal) (S := S1x50176x64) (e := .f32) G [pZ iw]
    [pA3 v i0 i1 i2 i3 iw P0 P1 P2 P3, pA2 v i0 i1 i2 iw P0 P1 P2, pA1 v i0 i1 iw P0 P1, pA0 v i0 iw P0] ?_ y ?_
  · intro p hp
    rcases List.mem_cons.mp hp with rfl | hp
    · intro x
      exact (congrFun (congrArg P3 (load3 v i0 i1 i2 i3 iw P0 P1 P2)) x).trans (h3 x)
    · rcases List.mem_cons.mp hp with rfl | hp
      · intro x
        exact (congrFun (congrArg P2 (load2 v i0 i1 i2 iw P0 P1)) x).trans (h2 x)
      · rcases List.mem_cons.mp hp with rfl | hp
        · intro x
          exact (congrFun (congrArg P1 (load1 v i0 i1 iw P0)) x).trans (h1 x)
        · rw [List.mem_singleton] at hp; subst hp
          intro x
          exact (congrFun (congrArg P0 (load0 v i0 iw)) x).trans (h0 x)
  · have h1' : (y 1).val < 50176 := (y 1).isLt
    have h0' : (y 0).val < 1 := (y 0).isLt
    have h2' : (y 2).val < 64 := (y 2).isLt
    by_cases c3 : 37632 ≤ (y 1).val
    · refine ⟨_, List.mem_cons_self, ?_⟩
      show y ∈ (Rect.unit (s := S1x50176x64) ![0, 37632, 0] ![1, 12544, 64] i3).set
      rw [Rect.mem_set_unit]
      intro a
      match a with
      | ⟨0, _⟩ => show 0 ≤ (y 0).val ∧ (y 0).val < 0 + 1; omega
      | ⟨1, _⟩ => show 37632 ≤ (y 1).val ∧ (y 1).val < 37632 + 12544; omega
      | ⟨2, _⟩ => show 0 ≤ (y 2).val ∧ (y 2).val < 0 + 64; omega
    · by_cases c2 : 25088 ≤ (y 1).val
      · refine ⟨_, List.mem_cons_of_mem _ List.mem_cons_self, ?_⟩
        show y ∈ (Rect.unit (s := S1x50176x64) ![0, 25088, 0] ![1, 12544, 64] i2).set
        rw [Rect.mem_set_unit]
        intro a
        match a with
        | ⟨0, _⟩ => show 0 ≤ (y 0).val ∧ (y 0).val < 0 + 1; omega
        | ⟨1, _⟩ => show 25088 ≤ (y 1).val ∧ (y 1).val < 25088 + 12544; omega
        | ⟨2, _⟩ => show 0 ≤ (y 2).val ∧ (y 2).val < 0 + 64; omega
      · by_cases c1 : 12544 ≤ (y 1).val
        · refine ⟨_, List.mem_cons_of_mem _ (List.mem_cons_of_mem _ List.mem_cons_self), ?_⟩
          show y ∈ (Rect.unit (s := S1x50176x64) ![0, 12544, 0] ![1, 12544, 64] i1).set
          rw [Rect.mem_set_unit]
          intro a
          match a with
          | ⟨0, _⟩ => show 0 ≤ (y 0).val ∧ (y 0).val < 0 + 1; omega
          | ⟨1, _⟩ => show 12544 ≤ (y 1).val ∧ (y 1).val < 12544 + 12544; omega
          | ⟨2, _⟩ => show 0 ≤ (y 2).val ∧ (y 2).val < 0 + 64; omega
        · refine ⟨_, List.mem_cons_of_mem _ (List.mem_cons_of_mem _ (List.mem_cons_of_mem _ List.mem_cons_self)), ?_⟩
          show y ∈ (Rect.unit (s := S1x50176x64) ![0, 0, 0] ![1, 12544, 64] i0).set
          rw [Rect.mem_set_unit]
          intro a
          match a with
          | ⟨0, _⟩ => show 0 ≤ (y 0).val ∧ (y 0).val < 0 + 1; omega
          | ⟨1, _⟩ => show 0 ≤ (y 1).val ∧ (y 1).val < 0 + 12544; omega
          | ⟨2, _⟩ => show 0 ≤ (y 2).val ∧ (y 2).val < 0 + 64; omega

end FirstPoint

/-- A chunk's store over the zero chunk is the delta on the chunk. -/
theorem chunk0_zero (x0 x1 : Vec Ideal S128 .i32) (x2 : Vec Ideal S128 .f32) (x3 : Vec Ideal S50176x64 .bf16)
    (inb : ∀ a, (![0, 0, 0] : Fin 3 → Nat) a + (![1, 12544, 64] : Fin 3 → Nat) a ≤ S1x50176x64.size a) (x : S1x12544x64.Idx) :
    k0_pay12 (F := Ideal) (msgv x1 x2 x3) (k0_pay11 (k0_pay5 x0)) (constant S12544x64 .f32 0x00000000#32) (fun _ => (0 : EReal)) x
      = delta x0 x1 x2 x3 ((Rect.unit (s := S1x50176x64) ![0, 0, 0] ![1, 12544, 64] inb).emb x) := by
  rw [chunk0_val, zero_add, delta_emb]
theorem chunk1_zero (x0 x1 : Vec Ideal S128 .i32) (x2 : Vec Ideal S128 .f32) (x3 : Vec Ideal S50176x64 .bf16)
    (inb : ∀ a, (![0, 12544, 0] : Fin 3 → Nat) a + (![1, 12544, 64] : Fin 3 → Nat) a ≤ S1x50176x64.size a) (x : S1x12544x64.Idx) :
    k0_pay13 (F := Ideal) (k0_pay5 x0) (msgv x1 x2 x3) (fun _ => (0 : EReal)) x
      = delta x0 x1 x2 x3 ((Rect.unit (s := S1x50176x64) ![0, 12544, 0] ![1, 12544, 64] inb).emb x) := by
  rw [chunk1_val, zero_add, delta_emb]
theorem chunk2_zero (x0 x1 : Vec Ideal S128 .i32) (x2 : Vec Ideal S128 .f32) (x3 : Vec Ideal S50176x64 .bf16)
    (inb : ∀ a, (![0, 25088, 0] : Fin 3 → Nat) a + (![1, 12544, 64] : Fin 3 → Nat) a ≤ S1x50176x64.size a) (x : S1x12544x64.Idx) :
    k0_pay1 (F := Ideal) (k0_pay14 (k0_pay5 x0) (msgv x1 x2 x3) (fun _ => (0 : EReal))) x
      = delta x0 x1 x2 x3 ((Rect.unit (s := S1x50176x64) ![0, 25088, 0] ![1, 12544, 64] inb).emb x) := by
  rw [chunk2_val, zero_add, delta_emb]
theorem chunk3_zero (x0 x1 : Vec Ideal S128 .i32) (x2 : Vec Ideal S128 .f32) (x3 : Vec Ideal S50176x64 .bf16)
    (inb : ∀ a, (![0, 37632, 0] : Fin 3 → Nat) a + (![1, 12544, 64] : Fin 3 → Nat) a ≤ S1x50176x64.size a) (x : S1x12544x64.Idx) :
    k0_pay2 (F := Ideal) (k0_pay5 x0) (msgv x1 x2 x3) (fun _ => (0 : EReal)) x
      = delta x0 x1 x2 x3 ((Rect.unit (s := S1x50176x64) ![0, 37632, 0] ![1, 12544, 64] inb).emb x) := by
  rw [chunk3_val, zero_add, delta_emb]

/-- CASE A (the first point of a core's row): the block is zeroed first, so it ends at the point's delta alone. -/
theorem out_A (c : Dev nD) (i : grid0.Coords) (arg2 : Memref sig .tc .vmem S128 .i32) (harg2 : arg2.IsWhole) (arg3 : Memref sig .tc .vmem S128 .i32) (harg3 : arg3.IsWhole) (arg4 : Memref sig .tc .vmem S128 .f32) (harg4 : arg4.IsWhole) (arg5 : Memref sig .tc .vmem S50176x64 .bf16) (harg5 : arg5.IsWhole) (arg6 : Memref sig .tc .vmem S1x50176x64 .f32) (harg6 : arg6.IsWhole) (hc0 : cond0_0 i)
    (x0 : Vec Ideal S128 .i32) (x1 : Vec Ideal S128 .i32) (x2 : Vec Ideal S128 .f32) (x3 : Vec Ideal S50176x64 .bf16) :
    out0_A_4 c i arg2 harg2 arg3 harg3 arg4 harg4 arg5 harg5 arg6 harg6 hc0 x0 x1 x2 x3 = delta x0 x1 x2 x3 := by
  unfold out0_A_4
  rw [View.read_writes_eq_canon _ _ _ (cover0_A_4 c i arg2 harg2 arg3 harg3 arg4 harg4 arg5 harg5 arg6 harg6 hc0 x0 x1 x2 x3)]
  funext y
  unfold kernelRun0_A
  dsimp only
  sl_unfold_words
  simp only [View.readAt_eq_ld, harg2.read_unread, harg3.read_unread, harg4.read_unread, harg5.read_unread,
    View.ld_unit_zero (S := S128) hz1]
  exact first_point_canon arg6.view Facts₀.inb_S1x50176x64_S1x12544x64_0_0_0 Facts₀.inb_S1x50176x64_S1x12544x64_0_12544_0
    Facts₀.inb_S1x50176x64_S1x12544x64_0_25088_0 Facts₀.inb_S1x50176x64_S1x12544x64_0_37632_0 Facts₀.inb_S1x50176x64_S1x50176x64_0_0_0
    (fun vp => k0_pay12 (F := Ideal) (msgv x1 x2 x3) (k0_pay11 (k0_pay5 x0)) (constant S12544x64 .f32 0x00000000#32) vp)
    (fun vp => k0_pay13 (F := Ideal) (k0_pay5 x0) (msgv x1 x2 x3) vp)
    (fun vp => k0_pay1 (F := Ideal) (k0_pay14 (k0_pay5 x0) (msgv x1 x2 x3) vp))
    (fun vp => k0_pay2 (F := Ideal) (k0_pay5 x0) (msgv x1 x2 x3) vp)
    (delta x0 x1 x2 x3)
    (chunk0_zero x0 x1 x2 x3 _) (chunk1_zero x0 x1 x2 x3 _) (chunk2_zero x0 x1 x2 x3 _) (chunk3_zero x0 x1 x2 x3 _) y

end Cert.KernelIdeal.GinPieces

end
-- ==== Proof.Blocks.lean ====
/-
  Each input window's block at a grid point, and each array the region finds, named at its literal vector type, so
  that statements about their entries can use the arithmetic of the element type.
-/
import proofs.«418629_j48507360641133_4_alg».proof.Proof.Gen.KernelIdeal.Frame

noncomputable section

namespace Cert.KernelIdeal.GinBlocks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The 128 row ids, column ids and weights of the edges of block `t`, and the whole padded table, as the body finds them. -/
abbrev rowblk (c : Dev nD) (t : Fin cfg0.N) : Vec F S128 .i32 := iblk m c 0 t
abbrev colblk (c : Dev nD) (t : Fin cfg0.N) : Vec F S128 .i32 := iblk m c 1 t
abbrev wblk (c : Dev nD) (t : Fin cfg0.N) : Vec F S128 .f32 := iblk m c 2 t
abbrev xpblk (c : Dev nD) (t : Fin cfg0.N) : Vec F S50176x64 .bf16 := iblk m c 3 t

/-- The arrays the region's windows read, as the host operations before it leave them: the row ids, the column ids, the
    weights with self loops removed, and the feature table narrowed and padded with 176 zero rows. -/
abbrev rowarr (c : Dev nD) : Vec F S800000 .i32 := V m c main_v1
abbrev colarr (c : Dev nD) : Vec F S800000 .i32 := V m c main_v3
abbrev warr (c : Dev nD) : Vec F S800000 .f32 := V m c main_v6
abbrev xparr (c : Dev nD) : Vec F S50176x64 .bf16 := V m c main_v8

end Cert.KernelIdeal.GinBlocks

end
-- ==== Proof.Accum.lean ====
/-
  The carried output block after each grid point, and the result array after the run.

  Grid point n = 3125·k + b is step b of core k. After it the block holds the sum of the deltas of the points
  3125·k, …, n: the first point of a core's row starts from the delta alone, every later point adds its delta to what
  the point before left. The block is written back once per core, after step 3124, to row k of the result array, so
  the result array at (k, i, d) is the sum of the 3125 deltas of core k's points at node i, feature d.
-/
import proofs.«418629_j48507360641133_4_alg».proof.Proof.Pieces
import proofs.«418629_j48507360641133_4_alg».proof.Proof.Blocks

set_option maxRecDepth 16384

noncomputable section

open scoped BigOperators

namespace Cert.KernelIdeal.GinAccum

open Idealize.ShloMosaic Idealize.ShloMosaic.TcCoe Idealize.ShloMosaic.ValueIdx Idealize.SL.Sem
open Idealize.ShloMosaic.Pipeline (Dat)
open Cert.KernelIdeal Cert.KernelIdeal.Gen Cert.GinSpec Cert.KernelIdeal.GinPieces Cert.KernelIdeal.GinBlocks

variable (m : (ℓ : Loc nD τ sig) → Buf (Elt Ideal) ℓ)

/-- The delta of grid point `n` on the output block; nothing past the grid. -/
def D (c : Dev nD) (n : ℕ) : S1x50176x64.Idx → EReal :=
  if h : n < cfg0.N then delta (rowblk m c ⟨n, h⟩) (colblk m c ⟨n, h⟩) (wblk m c ⟨n, h⟩) (xpblk m c ⟨n, h⟩) else fun _ => 0

theorem D_of_lt (c : Dev nD) (n : ℕ) (h : n < cfg0.N) :
    D m c n = delta (rowblk m c ⟨n, h⟩) (colblk m c ⟨n, h⟩) (wblk m c ⟨n, h⟩) (xpblk m c ⟨n, h⟩) := dif_pos h

/-- After point `n` the block holds the deltas of its core's points so far. -/
theorem outsAt_eq (c : Dev nD) : ∀ (n : ℕ) (h : n < cfg0.N),
    outsAt0 m c n h = fun y => ∑ b ∈ Finset.range (n % 3125 + 1), D m c (n - n % 3125 + b) y
  | 0, h => by
    rw [outsAt0_A m c ⟨0, h⟩ rfl, out_A]
    funext y
    show _ = ∑ b ∈ Finset.range 1, D m c (0 + b) y
    rw [Finset.sum_range_one]
    show _ = D m c 0 y
    rw [D_of_lt m c _ h]
  | n + 1, h => by
    by_cases h0 : (n + 1) % 3125 = 0
    · rw [outsAt0_A m c ⟨n + 1, h⟩ h0, out_A]
      funext y
      rw [h0]
      show _ = ∑ b ∈ Finset.range 1, D m c (n + 1 + b) y
      rw [Finset.sum_range_one]
      show _ = D m c (n + 1) y
      rw [D_of_lt m c _ h]
    · rw [outsAt0_B m c ⟨n + 1, h⟩ h0, out_B]
      funext y
      have ih : outsAt0 m c n (Nat.lt_of_succ_lt h) y = ∑ b ∈ Finset.range (n % 3125 + 1), D m c (n - n % 3125 + b) y :=
        congrFun (outsAt_eq c n (Nat.lt_of_succ_lt h)) y
      have e1 : (n + 1) % 3125 = n % 3125 + 1 := by omega
      have e2 : n + 1 - (n % 3125 + 1) = n - n % 3125 := by omega
      have e3 : n - n % 3125 + (n % 3125 + 1) = n + 1 := by omega
      show outsAt0 m c n _ y + _ = _
      rw [ih, e1, e2, Finset.sum_range_succ _ (n % 3125 + 1), e3, D_of_lt m c _ h]

/-- The result array's contents: core `k`'s row holds the sum of its 3125 points' deltas. -/
def accFn (c : Dev nD) : S2x50176x64.Idx → EReal :=
  fun z => ∑ b ∈ Finset.range 3125, D m c ((z 0).val * 3125 + b) (ix3 (0 : Fin 1) (z 1) (z 2))

/-- The same, as contents of the result array. -/
def accArr (c : Dev nD) : Buf (Elt Ideal) ((c : Thread nD τ).loc main_v9) := accFn m c

theorem accArr_def (c : Dev nD) (z : S2x50176x64.Idx) :
    accArr m c z = ∑ b ∈ Finset.range 3125, D m c ((z 0).val * 3125 + b) (ix3 (0 : Fin 1) (z 1) (z 2)) := rfl

/-- Output window 4's block index is the core, decided over the grid. -/
theorem idx_facts4 : ∀ t : Fin cfg0.N, win0_4.index t (0 : Fin 3) = t.val / 3125
    ∧ win0_4.index t (1 : Fin 3) = 0 ∧ win0_4.index t (2 : Fin 3) = 0 :=
  (by decide +kernel : ∀ t : Fin grid0.N, _)

/-- What a core's last point writes back is its row of `accArr`. -/
theorem flushed_eq (c : Dev nD) (t : Fin cfg0.N) (hf : (cfg0.win 4).flush t = true) :
    (dats m 0 c).flushed 4 t = ((cfg0.win 4).blk t).view.read (Elt Ideal) (accArr m c) := by
  have hN : t.val < 6250 := lt_of_lt_of_eq t.isLt (show cfg0.N = 6250 from N_0)
  have h3 : t.val % 3125 = 3124 := (flush0_4 t).mp hf
  show (cfg0.win 4).cut (grid0.coords t) ((dats m 0 c).after 4 t) = _
  rw [after0_4, outsAt_eq]
  obtain ⟨e0, e1, e2⟩ := idx_facts4 t
  funext y
  show ∑ b ∈ Finset.range (t.val % 3125 + 1), D m c (t.val - t.val % 3125 + b) y = accArr m c (((cfg0.win 4).blk t).view.emb y)
  rw [accArr_def, h3]
  have hk : ((((cfg0.win 4).blk t).view.emb y) 0).val = t.val / 3125 := by
    show win0_4.index t (0 : Fin 3) * 1 + 1 * (y 0).val = _
    have : (y 0).val < 1 := (y 0).isLt
    rw [e0]; omega
  have hy : (ix3 (0 : Fin 1) ((((cfg0.win 4).blk t).view.emb y) 1) ((((cfg0.win 4).blk t).view.emb y) 2) : S1x50176x64.Idx) = y := by
    funext a
    apply Fin.ext
    match a with
    | ⟨0, _⟩ => show (0 : ℕ) = (y 0).val; have : (y 0).val < 1 := (y 0).isLt; omega
    | ⟨1, _⟩ => show win0_4.index t (1 : Fin 3) * 50176 + 1 * (y 1).val = (y 1).val; rw [e1]; omega
    | ⟨2, _⟩ => show win0_4.index t (2 : Fin 3) * 64 + 1 * (y 2).val = (y 2).val; rw [e2]; omega
  refine Finset.sum_congr rfl fun b _ => ?_
  have hn : t.val - 3124 + b = ((((cfg0.win 4).blk t).view.emb y) 0).val * 3125 + b := by rw [hk]; omega
  rw [hn]
  exact congrArg (D m c _) hy.symm

/-- An index of the result array is in point `t`'s block iff its core coordinate is the block's. -/
theorem mem_blk4 (t : Fin cfg0.N) (i : S2x50176x64.Idx) :
    i ∈ ((cfg0.win 4).blk t).view.set ↔ ∀ a : Fin 3, win0_4.index t a * S1x50176x64.size a ≤ (i a).val ∧ (i a).val < win0_4.index t a * S1x50176x64.size a + S1x50176x64.size a := by
  show i ∈ ((View.whole main_v9).slice (win0_4.rect t)).set ↔ _
  rw [View.set_slice_whole, Rect.mem_set_unit]
  exact Iff.rfl

/-- Every index of the result array lies in the block its core's last point writes back. -/
theorem cover4 (i : S2x50176x64.Idx) :
    ∃ t : Fin cfg0.N, (cfg0.win 4).flush t = true ∧ i ∈ ((cfg0.win 4).blk t).view.set := by
  have hi0 : (i 0).val < 2 := (i 0).isLt
  have hi1 : (i 1).val < 50176 := (i 1).isLt
  have hi2 : (i 2).val < 64 := (i 2).isLt
  have hlt : (i 0).val * 3125 + 3124 < cfg0.N := by rw [show cfg0.N = 6250 from N_0]; omega
  obtain ⟨t, ht⟩ : ∃ t : Fin cfg0.N, t.val = (i 0).val * 3125 + 3124 := ⟨⟨_, hlt⟩, rfl⟩
  refine ⟨t, (flush0_4 t).mpr (by omega), ?_⟩
  rw [mem_blk4]
  obtain ⟨e0, e1, e2⟩ := idx_facts4 t
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 50176 ≤ (i 1).val ∧ (i 1).val < win0_4.index t (1 : Fin 3) * 50176 + 50176
    rw [e1]; omega
  | ⟨2, _⟩ =>
    show win0_4.index t (2 : Fin 3) * 64 ≤ (i 2).val ∧ (i 2).val < win0_4.index t (2 : Fin 3) * 64 + 64
    rw [e2]; omega

/-- The result array after the run. -/
theorem final4 (c : Dev nD) : (dats m 0 c).arrAt 4 cfg0.N = accArr m c :=
  (dats m 0 c).arrAt_eq_of_cover 4 (accArr m c) (flushed_eq m c) (fun i => cover4 i)

end Cert.KernelIdeal.GinAccum

end
-- ==== Proof.HostPre.lean ====
/-
  What the region finds in its arrays, and its blocks read at an index.

  Before the region the host slices rows 0 and 1 out of the edge list and flattens them (the row ids and the column
  ids of the 800000 edges), keeps an edge's weight where its row id differs from its column id and puts zero where
  they are the same, and narrows the feature table (no change of value over the extended reals) and pads it with 176
  rows of zero. So the four arrays, read at an index, are: the edge list's row 0, its row 1, the weight with self
  loops removed, and the table's row where there is one and zero below it.

  The grid's point t = core * 3125 + step reads, through windows 0, 1 and 2, block t of 128 consecutive entries of
  its array: entry e of the block is entry t * 128 + e of the array. Window 3's one block is the whole padded table.
-/
import proofs.«418629_j48507360641133_4_alg».proof.Proof.Blocks
import proofs.«418629_j48507360641133_4_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.Lib.KernelVsHost
import Idealize.ShloMosaic.PureOps.Ideal.Laws

noncomputable section

namespace Cert.KernelIdeal.GinHost

open Idealize.ShloMosaic Idealize.ShloMosaic.TcCoe Idealize.ShloMosaic.ValueIdx Idealize.SL.Sem
open Cert.KernelIdeal Cert.KernelIdeal.Gen Cert.KernelIdeal.GinBlocks Cert.GinSpec

variable (m : (ℓ : Loc nD τ sig) → Buf (Elt Ideal) ℓ)

/-- The three argument arrays the region's inputs are made from, as launched: the feature table, the edge list (row
    ids in row 0, column ids in row 1) and the edge weights. -/
abbrev argX (c : Dev nD) : FVec Ideal S50000x64 .f32 := m ((c : Thread nD τ).loc main_arg0)
abbrev argEI (c : Dev nD) : IVec S2x800000 32 := m ((c : Thread nD τ).loc main_arg1)
abbrev argEW (c : Dev nD) : FVec Ideal S800000 .f32 := m ((c : Thread nD τ).loc main_arg2)

/-! ## The arrays as terms of the argument arrays -/

/-- Row `k` of the edge list, flattened: the slice `[k : k + 1, 0 : 800000]` reshaped to one axis. -/
abbrev rowT (c : Dev nD) : IVec S800000 32 :=
  shapeCast S800000 (extractStridedSlice S1x800000 ![0, 0] (argEI m c) slices_S2x800000_S1x800000_0_0)
    shapeCasts_S1x800000_S800000
abbrev colT (c : Dev nD) : IVec S800000 32 :=
  shapeCast S800000 (extractStridedSlice S1x800000 ![1, 0] (argEI m c) slices_S2x800000_S1x800000_1_0)
    shapeCasts_S1x800000_S800000

theorem rowarr_eq (c : Dev nD) : (rowarr m c : S800000.Idx → BitVec 32) = rowT m c := by
  show V m c main_v1 = _
  dsimp only [Gen.V, Gen.V0]
  simp only [Gen.hostOps0, Gen.hostOps0_1, Gen.hostOps0_2, Gen.hostOps0_3, List.flatten_cons, List.flatten_nil, List.append_nil, List.cons_append, List.nil_append]
  after_results
  rfl

theorem colarr_eq (c : Dev nD) : (colarr m c : S800000.Idx → BitVec 32) = colT m c := by
  show V m c main_v3 = _
  dsimp only [Gen.V, Gen.V0]
  simp only [Gen.hostOps0, Gen.hostOps0_1, Gen.hostOps0_2, Gen.hostOps0_3, List.flatten_cons, List.flatten_nil, List.append_nil, List.cons_append, List.nil_append]
  after_results
  rfl

theorem warr_eq (c : Dev nD) : (warr m c : FVec Ideal S800000 .f32)
    = select (cmpi .ne (rowT m c) (colT m c)) (argEW m c)
        (broadcastInDim S800000 ![] bcast_S_S800000 (constant (F := Ideal) S_ .f32 0x00000000#32)) := by
  show V m c main_v6 = _
  dsimp only [Gen.V, Gen.V0]
  simp only [Gen.hostOps0, Gen.hostOps0_1, Gen.hostOps0_2, Gen.hostOps0_3, List.flatten_cons, List.flatten_nil, List.append_nil, List.cons_append, List.nil_append]
  after_results
  rfl

theorem xparr_eq (c : Dev nD) : (xparr m c : FVec Ideal S50176x64 .bf16)
    = pad S50176x64 ![0, 0] ![176, 0] ![0, 0] (truncf .bf16 (argX m c) bitsLt_bf16_f32)
        (sitofp (F := Ideal) .bf16 (constantI S_ 32 0#32)) pads_S50000x64_S50176x64_01760_000 h_S_ := by
  show V m c main_v8 = _
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-! ## The arrays at an index -/

/-- Flattened row `k` at edge `E` is the edge list at `(k, E)`: the flattening keeps the row-major position, and the
    slice shifts the row coordinate by `k`. -/
theorem rowT_apply (c : Dev nD) (E : Fin 800000) : rowT m c (ix1 E) = argEI m c (ix2 (0 : Fin 2) E) := by
  refine (shapeCast_apply _ _ (ix1 E) (ix2 (0 : Fin 1) E) ?_).trans ?_
  · rw [Shape.rowMajor_val_two, Shape.rowMajor_val_one]
    show (0 : Nat) * 800000 + E.val = E.val
    omega
  · refine extractStridedSlice_apply _ _ _ _ (ix2 (0 : Fin 2) E) fun a => ?_
    match a with
    | ⟨0, _⟩ => rfl
    | ⟨1, _⟩ => show E.val = 0 + E.val; omega

theorem colT_apply (c : Dev nD) (E : Fin 800000) : colT m c (ix1 E) = argEI m c (ix2 (1 : Fin 2) E) := by
  refine (shapeCast_apply _ _ (ix1 E) (ix2 (0 : Fin 1) E) ?_).trans ?_
  · rw [Shape.rowMajor_val_two, Shape.rowMajor_val_one]
    show (0 : Nat) * 800000 + E.val = E.val
    omega
  · refine extractStridedSlice_apply _ _ _ _ (ix2 (1 : Fin 2) E) fun a => ?_
    match a with
    | ⟨0, _⟩ => rfl
    | ⟨1, _⟩ => show E.val = 0 + E.val; omega

theorem rowarr_apply (c : Dev nD) (E : Fin 800000) : rowarr m c (ix1 E) = argEI m c (ix2 (0 : Fin 2) E) := by
  rw [rowarr_eq, rowT_apply]

theorem colarr_apply (c : Dev nD) (E : Fin 800000) : colarr m c (ix1 E) = argEI m c (ix2 (1 : Fin 2) E) := by
  rw [colarr_eq, colT_apply]

/-- The select between a weight and zero on "row id ≠ column id" is the weight with self loops removed. -/
theorem select_ne (a b : BitVec 32) (w : EReal) :
    Scalar.select (IntOp.cmpi .ne a b) w (Ideal.ofBits .f32 0x00000000#32) = if a = b then 0 else w := by
  rw [Ideal.ofBits_zero_f32]
  by_cases h : a = b
  · subst h; simp [Scalar.select, IntOp.cmpi]
  · have hb : (a != b) = true := bne_iff_ne.mpr h
    simp [Scalar.select, IntOp.cmpi, hb, h]

theorem warr_apply (c : Dev nD) (E : Fin 800000) : warr m c (ix1 E) = wgt (argEI m c) (argEW m c) E := by
  rw [warr_eq]
  show Scalar.select (IntOp.cmpi .ne (rowT m c (ix1 E)) (colT m c (ix1 E))) (argEW m c (ix1 E))
    (Ideal.ofBits .f32 0x00000000#32) = _
  rw [rowT_apply, colT_apply, select_ne]
  rfl

theorem xparr_apply (c : Dev nD) (r : Fin 50176) (d : Fin 64) :
    xparr m c (ix2 r d) = if h : r.val < 50000 then argX m c (ix2 ⟨r.val, h⟩ d) else 0 := by
  rw [xparr_eq]
  by_cases h : r.val < 50000
  · rw [dif_pos h]
    refine (pad_apply_of_inside _ _ _ _ _ _ _ (ix2 r d) (ix2 ⟨r.val, h⟩ d) fun a => ?_).trans rfl
    match a with
    | ⟨0, _⟩ => show r.val = 0 + r.val * (0 + 1); omega
    | ⟨1, _⟩ => show d.val = 0 + d.val * (0 + 1); omega
  · rw [dif_neg h]
    refine (pad_apply_of_not_inside _ _ _ _ _ _ _ (ix2 r d) (0 : Fin 2) fun hh => h ?_).trans sitofp_zero
    have h3 : (r.val - 0) / (0 + 1) < 50000 := hh.2.2
    simpa using h3

/-! ## The blocks at an index -/

/-- Entry `e` of block `t` is an entry of the array: 6250 blocks of 128 make the 800000 edges. -/
theorem edge_lt (t : Fin cfg0.N) (e : Fin 128) : t.val * 128 + e.val < 800000 := by
  have h : t.val < 6250 := lt_of_lt_of_eq t.isLt Gen.N_0
  have := e.isLt
  omega

/-- The grid is row-major, point `t` being (core, step) with `t = core * 3125 + step`, and windows 0, 1 and 2 map the
    point to block `core * 3125 + step`: block `t`. Window 3 maps every point to block (0, 0). -/
theorem index0 : ∀ t : Fin cfg0.N, win0_0.index t 0 = t.val :=
  (by decide +kernel : ∀ t : Fin grid0.N, win0_0.index t 0 = t.val)
theorem index1 : ∀ t : Fin cfg0.N, win0_1.index t 0 = t.val :=
  (by decide +kernel : ∀ t : Fin grid0.N, win0_1.index t 0 = t.val)
theorem index2 : ∀ t : Fin cfg0.N, win0_2.index t 0 = t.val :=
  (by decide +kernel : ∀ t : Fin grid0.N, win0_2.index t 0 = t.val)
theorem index3 : ∀ t : Fin cfg0.N, win0_3.index t 0 = 0 ∧ win0_3.index t 1 = 0 :=
  (by decide +kernel : ∀ t : Fin grid0.N, win0_3.index t 0 = 0 ∧ win0_3.index t 1 = 0)

theorem rowblk_apply (c : Dev nD) (t : Fin cfg0.N) (e : Fin 128) :
    rowblk m c t (ix1 e) = rowarr m c (ix1 ⟨t.val * 128 + e.val, edge_lt t e⟩) := by
  show iblk m c 0 t (ix1 e) = V m c main_v1 _
  unfold iblk
  rw [View.read_apply]
  show V m c main_v1 _ = V m c main_v1 _
  congr 1
  funext a
  apply Fin.ext
  match a with
  | ⟨0, _⟩ => show win0_0.index t 0 * 128 + 1 * e.val = t.val * 128 + e.val; rw [index0 t]; omega

theorem colblk_apply (c : Dev nD) (t : Fin cfg0.N) (e : Fin 128) :
    colblk m c t (ix1 e) = colarr m c (ix1 ⟨t.val * 128 + e.val, edge_lt t e⟩) := by
  show iblk m c 1 t (ix1 e) = V m c main_v3 _
  unfold iblk
  rw [View.read_apply]
  show V m c main_v3 _ = V m c main_v3 _
  congr 1
  funext a
  apply Fin.ext
  match a with
  | ⟨0, _⟩ => show win0_1.index t 0 * 128 + 1 * e.val = t.val * 128 + e.val; rw [index1 t]; omega

theorem wblk_apply (c : Dev nD) (t : Fin cfg0.N) (e : Fin 128) :
    wblk m c t (ix1 e) = warr m c (ix1 ⟨t.val * 128 + e.val, edge_lt t e⟩) := by
  show iblk m c 2 t (ix1 e) = V m c main_v6 _
  unfold iblk
  rw [View.read_apply]
  show V m c main_v6 _ = V m c main_v6 _
  congr 1
  funext a
  apply Fin.ext
  match a with
  | ⟨0, _⟩ => show win0_2.index t 0 * 128 + 1 * e.val = t.val * 128 + e.val; rw [index2 t]; omega

theorem xpblk_eq (c : Dev nD) (t : Fin cfg0.N) : xpblk m c t = xparr m c := by
  funext j
  show iblk m c 3 t j = V m c main_v8 j
  unfold iblk
  rw [View.read_apply]
  show V m c main_v8 _ = V m c main_v8 j
  congr 1
  funext a
  apply Fin.ext
  match a with
  | ⟨0, _⟩ => show win0_3.index t 0 * 50176 + 1 * (j 0).val = (j 0).val; rw [(index3 t).1]; omega
  | ⟨1, _⟩ => show win0_3.index t 1 * 64 + 1 * (j 1).val = (j 1).val; rw [(index3 t).2]; omega

end Cert.KernelIdeal.GinHost

end
-- ==== Proof.Tail.lean ====
/-
  After the region: the two cores' rows of the result array are added, the 176 padding rows are cut off, and
  (1 + ε) · x is added. Read at node i and feature d, the program's result is
  (1 + ε) · x[i, d] + (row 0 of the result array at (i, d) + row 1 of it at (i, d)).
-/
import proofs.«418629_j48507360641133_4_alg».proof.Proof.Accum
import proofs.«418629_j48507360641133_4_alg».proof.Proof.HostPre
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.GinTail

open Idealize.ShloMosaic Idealize.ShloMosaic.TcCoe Idealize.ShloMosaic.ValueIdx Idealize.SL.Sem
open Idealize.ShloMosaic.Pipeline (Dat)
open Cert.KernelIdeal Cert.KernelIdeal.Gen Cert.GinSpec Cert.KernelIdeal.GinAccum Cert.KernelIdeal.GinHost

variable (m : (ℓ : Loc nD τ sig) → Buf (Elt Ideal) ℓ)

/-- The one-element array ε, as launched. -/
abbrev argEps (c : Dev nD) : FVec Ideal S1 .f32 := m ((c : Thread nD τ).loc main_arg3)

/-- After the region the result array holds each core's sum of deltas; -/
theorem wa_v9 (c : Dev nD) :
    Pipeline.withArrays (cfgs 0).spec c (V0 m c) (fun w => (dats m 0 c).arrAt w (cfgs 0).N) (Proc.devRef .tc main_v9) = accArr m c :=
  (Pipeline.withArrays_arr spec0 launch0.win.arr_inj c _ _ 4).trans (final4 m c)

/-- the feature table and ε are as launched. -/
theorem wa_arg0 (c : Dev nD) :
    Pipeline.withArrays (cfgs 0).spec c (V0 m c) (fun w => (dats m 0 c).arrAt w (cfgs 0).N) (Proc.devRef .tc main_arg0) = argX m c :=
  (Pipeline.withArrays_of_ne _ c (V0 m c) _ main_arg0 (by exact (by decide : ∀ w, Pipeline.arrRef spec0 w ≠ main_arg0))).trans (V_main_arg0 m c)

theorem wa_arg3 (c : Dev nD) :
    Pipeline.withArrays (cfgs 0).spec c (V0 m c) (fun w => (dats m 0 c).arrAt w (cfgs 0).N) (Proc.devRef .tc main_arg3) = argEps m c :=
  (Pipeline.withArrays_of_ne _ c (V0 m c) _ main_arg3 (by exact (by decide : ∀ w, Pipeline.arrRef spec0 w ≠ main_arg3))).trans (V_main_arg3 m c)

/-- The twelve operations after the region, as one term of the result array, the feature table and ε. -/
def tailTerm (A : FVec Ideal S2x50176x64 .f32) (x : FVec Ideal S50000x64 .f32) (eps : FVec Ideal S1 .f32) : FVec Ideal S50000x64 .f32 :=
  addf
    (mulf (broadcastInDim S50000x64 ![] Facts₀.bcast_S_S50000x64
        (addf (constant (F := Ideal) S_ .f32 0x3F800000#32) (shapeCast S_ eps Facts₀.shapeCasts_S1_S_))) x)
    (extractStridedSlice S50000x64 ![0, 0]
      (addf
        (shapeCast S50176x64 (extractStridedSlice S1x50176x64 ![0, 0, 0] A Facts₀.slices_S2x50176x64_S1x50176x64_0_0_0) Facts₀.shapeCasts_S1x50176x64_S50176x64)
        (shapeCast S50176x64 (extractStridedSlice S1x50176x64 ![1, 0, 0] A Facts₀.slices_S2x50176x64_S1x50176x64_1_0_0) Facts₀.shapeCasts_S1x50176x64_S50176x64))
      Facts₀.slices_S50176x64_S50000x64_0_0)

/-- The program's result after the tail is that term of the result array and the arguments. -/
theorem tail_eq (c : Dev nD) :
    Pipeline.afterTail₀ cfgs (dats m) 0 (V0 m) [hostOps1] c main_v20 = tailTerm (accArr m c) (argX m c) (argEps m c) := by
  unfold Pipeline.afterTail₀
  show StableHlo.after hostOps1 _ (Proc.devRef .tc main_v20) = _
  after_results
  rw [wa_v9, wa_arg0, wa_arg3]
  rfl

/-- The one-element shape has one index. -/
theorem idx1_eq (k : S1.Idx) : k = ix1 (0 : Fin 1) := by
  funext a
  apply Fin.ext
  match a with
  | ⟨0, _⟩ =>
    have h1 : (k 0).val < 1 := (k 0).isLt
    show (k 0).val = 0
    omega

/-- The tail's term at node `i`, feature `d`. -/
theorem tailTerm_apply (A : FVec Ideal S2x50176x64 .f32) (x : FVec Ideal S50000x64 .f32) (eps : FVec Ideal S1 .f32)
    (i : Fin 50000) (d : Fin 64) :
    tailTerm A x eps (ix2 i d)
      = (Ideal.ofBits .f32 0x3F800000#32 + eps (ix1 (0 : Fin 1))) * x (ix2 i d)
        + (A (ix3 (0 : Fin 2) (⟨i.val, by omega⟩ : Fin 50176) d) + A (ix3 (1 : Fin 2) (⟨i.val, by omega⟩ : Fin 50176) d)) := by
  unfold tailTerm
  rw [addf_apply, mulf_apply]
  congr 1
  · congr 1
    show (addf (constant (F := Ideal) S_ .f32 0x3F800000#32) (shapeCast S_ eps Facts₀.shapeCasts_S1_S_)) _ = _
    rw [addf_apply, constant_apply]
    congr 1
    unfold shapeCast
    exact congrArg eps (idx1_eq _)
  · unfold extractStridedSlice
    rw [addf_apply]
    have e : (fun a : Fin S50176x64.rank => (⟨(![0, 0] : Fin 2 → Nat) a + ((ix2 i d : S50000x64.Idx) (a.cast Facts₀.slices_S50176x64_S50000x64_0_0.1.symm)).val,
        Nat.lt_of_lt_of_le (Nat.add_lt_add_left ((ix2 i d : S50000x64.Idx) _).isLt _) (Facts₀.slices_S50176x64_S50000x64_0_0.2 a)⟩ : Fin (S50176x64.size a)))
        = (ix2 (⟨i.val, by omega⟩ : Fin 50176) d : S50176x64.Idx) := by
      funext a
      apply Fin.ext
      match a with
      | ⟨0, _⟩ => show 0 + i.val = i.val; omega
      | ⟨1, _⟩ => show 0 + d.val = d.val; omega
    rw [e, shapeCast_1ab_ab_apply, shapeCast_1ab_ab_apply]
    congr 1
    · congr 1
      funext a
      apply Fin.ext
      match a with
      | ⟨0, _⟩ => show 0 + 0 = 0; rfl
      | ⟨1, _⟩ => show 0 + i.val = i.val; omega
      | ⟨2, _⟩ => show 0 + d.val = d.val; omega
    · congr 1
      funext a
      apply Fin.ext
      match a with
      | ⟨0, _⟩ => show 1 + 0 = 1; rfl
      | ⟨1, _⟩ => show 0 + i.val = i.val; omega
      | ⟨2, _⟩ => show 0 + d.val = d.val; omega

end Cert.KernelIdeal.GinTail

end
-- ==== Proof.Sums.lean ====
/-
  Re-bracketing the aggregate: the sum over all 800000 edges is the sum over the 6250 blocks of the sums over each
  block's 128 edges, and the 6250 blocks are the two cores' 3125 each. Addition of extended reals is commutative and
  associative, so none of this needs finiteness. Also: a row of the zero-padded table named by a column id is the row
  of the table itself, or zero when the id names no row of the table.
-/
import proofs.«418629_j48507360641133_4_alg».proof.Proof.Algebra

noncomputable section

open scoped BigOperators

namespace Cert.GinSpec

open Idealize.ShloMosaic Idealize.ShloMosaic.ValueIdx

/-- Consecutive blocks of `K` terms, `N` of them, are the first `N · K` terms. -/
theorem sum_blocks (T : ℕ → EReal) (K : ℕ) : ∀ N : ℕ,
    ∑ n ∈ Finset.range N, ∑ e ∈ Finset.range K, T (n * K + e) = ∑ E ∈ Finset.range (N * K), T E
  | 0 => by simp
  | N + 1 => by
    rw [Finset.sum_range_succ, sum_blocks T K N, Nat.succ_mul, Finset.sum_range_add]

/-- Two runs of 3125 blocks, the second starting at block 3125, are the 6250 blocks. -/
theorem sum_two_cores (Dn : ℕ → EReal) :
    (∑ b ∈ Finset.range 3125, Dn (0 * 3125 + b)) + (∑ b ∈ Finset.range 3125, Dn (1 * 3125 + b))
      = ∑ n ∈ Finset.range 6250, Dn n := by
  rw [show (6250 : ℕ) = 3125 + 3125 from rfl, Finset.sum_range_add]
  simp only [Nat.zero_mul, Nat.zero_add, Nat.one_mul]

/-- The padded table: the table's rows, then zero rows. -/
def padded (x : SX.Idx → EReal) : SXp.Idx → EReal :=
  fun y => if h : (y 0).val < 50000 then x (ix2 ⟨(y 0).val, h⟩ (y 1)) else 0

/-- A row of the padded table named by a column id is that row of the table, or zero. -/
theorem xpAt_padded (x : SX.Idx → EReal) (c : BitVec 32) (d : Fin 64) : xpAt (padded x) c d = xAt x c d := by
  unfold xpAt xAt padded
  by_cases h : c.toNat < 50000
  · rw [dif_pos (by omega : c.toNat < 50176), dif_pos h]
  · rw [dif_neg h]
    by_cases h' : c.toNat < 50176
    · rw [dif_pos h']; exact dif_neg h
    · rw [dif_neg h']

/-- Edge number `E`'s term as a function on the naturals, nothing past the last edge. -/
def edgeTermN (x : SX.Idx → EReal) (ei : SE2.Idx → BitVec 32) (ew : SE.Idx → EReal) (i : Nat) (d : Fin 64) (E : ℕ) : EReal :=
  if h : E < 800000 then edgeTerm x ei ew i d ⟨E, h⟩ else 0

/-- The aggregate as a sum over the first 800000 naturals. -/
theorem agg_eq_range (x : SX.Idx → EReal) (ei : SE2.Idx → BitVec 32) (ew : SE.Idx → EReal) (i : Nat) (d : Fin 64) :
    agg x ei ew i d = ∑ E ∈ Finset.range 800000, edgeTermN x ei ew i d E := by
  unfold agg
  rw [Finset.sum_range]
  refine Finset.sum_congr rfl fun E _ => ?_
  unfold edgeTermN
  rw [dif_pos E.isLt]

end Cert.GinSpec

end
-- ==== Proof.Bridge.lean ====
/-
  The kernel's result is the layer's specification.

  The delta of grid point n at node i is the sum, over the 128 edges of block n, of what each edge adds to node i: the
  blocks the body finds are consecutive runs of the row ids, the column ids and the self-loop-free weights, and the
  padded table read at a column id is the feature table's row or zero. Core k's row of the result array sums its 3125
  blocks; the two rows together sum all 6250 blocks, that is all 800000 edges: the aggregate. The tail adds (1 + ε) · x.
-/
import proofs.«418629_j48507360641133_4_alg».proof.Proof.Tail
import proofs.«418629_j48507360641133_4_alg».proof.Proof.Sums

set_option maxRecDepth 16384

noncomputable section

open scoped BigOperators

namespace Cert.KernelIdeal.GinBridge

open Idealize.ShloMosaic Idealize.ShloMosaic.TcCoe Idealize.ShloMosaic.ValueIdx Idealize.SL.Sem
open Idealize.ShloMosaic.Pipeline (Dat)
open Cert.KernelIdeal Cert.KernelIdeal.Gen Cert.GinSpec Cert.KernelIdeal.GinPieces Cert.KernelIdeal.GinBlocks
open Cert.KernelIdeal.GinAccum Cert.KernelIdeal.GinHost Cert.KernelIdeal.GinTail

variable (m : (ℓ : Loc nD τ sig) → Buf (Elt Ideal) ℓ)

/-- The padded table the region finds is the feature table followed by zero rows. -/
theorem xparr_padded (c : Dev nD) : (xparr m c : SXp.Idx → EReal) = padded (argX m c) := by
  funext y
  obtain ⟨r, d, rfl⟩ : ∃ (r : Fin 50176) (d : Fin 64), y = ix2 r d := ⟨y 0, y 1, eq_ix2 y⟩
  rw [xparr_apply]
  rfl

/-- Grid point `n`'s delta at node `i`: the terms of the 128 edges of block `n`. -/
theorem D_apply (c : Dev nD) (n : ℕ) (hn : n < 6250) (i : Fin 50176) (d : Fin 64) :
    D m c n (ix3 (0 : Fin 1) i d)
      = ∑ e ∈ Finset.range 128, edgeTermN (argX m c) (argEI m c) (argEW m c) i.val d (n * 128 + e) := by
  have hN : n < cfg0.N := by rw [show cfg0.N = 6250 from N_0]; exact hn
  rw [D_of_lt m c n hN, Finset.sum_range]
  show blockDelta (rowblk m c ⟨n, hN⟩) (colblk m c ⟨n, hN⟩) (wblk m c ⟨n, hN⟩) (xpblk m c ⟨n, hN⟩) i.val d = _
  unfold blockDelta
  refine Finset.sum_congr rfl fun e _ => ?_
  have he : n * 128 + e.val < 800000 := by have := e.isLt; omega
  rw [rowblk_apply, colblk_apply, wblk_apply, xpblk_eq, rowarr_apply, colarr_apply, warr_apply, xparr_padded, xpAt_padded]
  unfold edgeTermN
  rw [dif_pos he]
  unfold edgeTerm emsg
  exact if_congr eq_comm rfl rfl

/-- Core `k`'s row of the result array at node `i`: its 3125 blocks' edges. -/
theorem accFn_apply (c : Dev nD) (k : Fin 2) (i : Fin 50176) (d : Fin 64) :
    accFn m c (ix3 k i d)
      = ∑ b ∈ Finset.range 3125, ∑ e ∈ Finset.range 128,
          edgeTermN (argX m c) (argEI m c) (argEW m c) i.val d ((k.val * 3125 + b) * 128 + e) := by
  unfold accFn
  refine Finset.sum_congr rfl fun b hb => ?_
  have hb' := Finset.mem_range.mp hb
  have hk := k.isLt
  exact D_apply m c (k.val * 3125 + b) (by omega) i d

/-- The program's result after the tail is the specification of the four argument arrays. -/
theorem kernel_value (c : Dev nD) :
    Pipeline.afterTail₀ cfgs (dats m) 0 (V0 m) [hostOps1] c main_v20
      = result (argX m c) (argEI m c) (argEW m c) (argEps m c) := by
  rw [tail_eq]
  show tailTerm (accFn m c) (argX m c) (argEps m c) = _
  funext y
  obtain ⟨i, d, rfl⟩ : ∃ (i : Fin 50000) (d : Fin 64), y = ix2 i d := ⟨y 0, y 1, eq_ix2 y⟩
  rw [tailTerm_apply]
  unfold result
  refine congrArg (fun z : EReal => (Ideal.ofBits .f32 0x3F800000#32 + argEps m c (ix1 (0 : Fin 1))) * argX m c (ix2 i d) + z) ?_
  rw [accFn_apply, accFn_apply]
  show _ = agg (argX m c) (argEI m c) (argEW m c) i.val d
  rw [agg_eq_range,
    ← sum_blocks (edgeTermN (argX m c) (argEI m c) (argEW m c) i.val d) 128 6250,
    ← sum_two_cores (fun n => ∑ e ∈ Finset.range 128, edgeTermN (argX m c) (argEI m c) (argEW m c) i.val d (n * 128 + e))]
  rfl

end Cert.KernelIdeal.GinBridge

end
-- ==== Proof.RefSide.lean ====
/-
  The reference's result, read at an index, is the layer's specification wherever every column id is in range.

  Stage by stage: the two slices of the edge list are its row ids and column ids; the masked weight is the edge's
  weight with self loops removed; the gather reads, for an in-range column id, that row of the feature table; the
  product of the two is the edge's message; the accumulating scatter into a zero table leaves, at node n and feature d,
  the sum over the edges whose row id is the word of n of their messages at d; and the result adds (1 + ε) · x to it.
-/
import proofs.«418629_j48507360641133_4_alg».proof.Proof.Gen.ReferenceIdeal.Run
import proofs.«418629_j48507360641133_4_alg».proof.Proof.Gen.ReferenceIdeal.Read
import proofs.«418629_j48507360641133_4_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.GinRef

open Idealize.ShloMosaic Idealize.ShloMosaic.ValueIdx Cert.ReferenceIdeal Cert.GinSpec
open Cert.ReferenceIdeal.Gen Idealize.ShloMosaic.StableHlo.Predicate

/-! ## The edge list's two rows -/

/-- The first slice, flattened, is the row id of each edge. -/
theorem row_apply (ei : IVec S2x800000 32) (E : Fin 800000) :
    Read.val_main_v1 (F := Ideal) ei (ix1 E) = ei (ix2 (0 : Fin 2) E) := by
  rw [Read.val_main_v1_apply, Read.val_main_v0_apply]
  congr 1
  funext a
  match a with
  | ⟨0, _⟩ => rfl
  | ⟨1, _⟩ => exact Fin.ext (Nat.mod_eq_of_lt E.isLt)

/-- The second slice, flattened, is the column id of each edge. -/
theorem col_apply (ei : IVec S2x800000 32) (E : Fin 800000) :
    Read.val_main_v3 (F := Ideal) ei (ix1 E) = ei (ix2 (1 : Fin 2) E) := by
  rw [Read.val_main_v3_apply, Read.val_main_v2_apply]
  congr 1
  funext a
  match a with
  | ⟨0, _⟩ => rfl
  | ⟨1, _⟩ => exact Fin.ext (Nat.mod_eq_of_lt E.isLt)

/-! ## The weight with self loops removed -/

theorem w_apply (ei : IVec S2x800000 32) (ew : FVec Ideal S800000 .f32) (E : Fin 800000) :
    Read.val_main_v6 (F := Ideal) ei ew (ix1 E) = wgt ei ew E := by
  rw [Read.val_main_v6_apply, Read.val_main_v4_apply, row_apply, col_apply, Read.val_main_v5_apply,
    Read.val_main_cst_apply]
  unfold wgt
  by_cases h : ei (ix2 (0 : Fin 2) E) = ei (ix2 (1 : Fin 2) E)
  · rw [if_pos h, h]
    have hc : IntOp.cmpi .ne (ei (ix2 (1 : Fin 2) E)) (ei (ix2 (1 : Fin 2) E)) = 0#1 := by
      simp [IntOp.cmpi]
    rw [hc, select_zero]
    exact Ideal.ofBits_zero_f32
  · rw [if_neg h]
    have hc : IntOp.cmpi .ne (ei (ix2 (0 : Fin 2) E)) (ei (ix2 (1 : Fin 2) E)) = 1#1 := by
      show BitVec.ofBool (ei (ix2 (0 : Fin 2) E) != ei (ix2 (1 : Fin 2) E)) = 1#1
      rw [bne_iff_ne.mpr h]; rfl
    rw [hc, select_one]

/-! ## Words: a signed reading that is not negative is the unsigned one -/

theorem toInt_eq_toNat_of_nonneg (c : BitVec 32) (h0 : 0 ≤ c.toInt) : c.toInt = (c.toNat : Int) := by
  have hlt := c.isLt
  rw [BitVec.toInt_eq_toNat_cond] at h0 ⊢
  by_cases h : 2 * c.toNat < 2 ^ 32
  · rw [if_pos h]
  · rw [if_neg h] at h0; omega

/-- A word read signed is the node number `n` exactly when it is the word of `n`. -/
theorem toInt_eq_iff_eq_ofNat (c : BitVec 32) (n : Nat) (hn : n < 50000) :
    c.toInt = (n : Int) ↔ c = BitVec.ofNat 32 n := by
  constructor
  · intro h
    have h1 := toInt_eq_toNat_of_nonneg c (by omega)
    apply BitVec.eq_of_toNat_eq
    rw [BitVec.toNat_ofNat]
    omega
  · intro h
    rw [h]
    exact toInt_ofNat_small n (by omega)

/-! ## The gather -/

/-- The start index the gather is given for edge `E` is its column id when that id is not negative. -/
theorem start_apply (ei : IVec S2x800000 32) (E : Fin 800000) (h0 : 0 ≤ (ei (ix2 (1 : Fin 2) E)).toInt) :
    Read.val_main_v12 (F := Ideal) ei (ix1 E) = ei (ix2 (1 : Fin 2) E) := by
  rw [Read.val_main_v12_apply, Read.val_main_v9_apply, col_apply, Read.val_main_v8_apply, Read.val_main_c_apply]
  have hc : IntOp.cmpi .slt (ei (ix2 (1 : Fin 2) E)) 0#32 = 0#1 := by
    have h00 : (0#32 : BitVec 32).toInt = 0 := by decide
    have hs : (ei (ix2 (1 : Fin 2) E)).slt 0#32 = false := by
      simp only [BitVec.slt, h00, decide_eq_false_iff_not, not_lt]; exact h0
    show BitVec.ofBool ((ei (ix2 (1 : Fin 2) E)).slt 0#32) = 0#1
    rw [hs]; rfl
  rw [hc, select_zero]

local notation "G" => gather_S50000x64_S800000x1_S800000x64_1_0_n_n_0_1_164

/-- The gather read at edge `E`, feature `d`: the table's row at the edge's start index, read signed and clamped into
    the table, at feature `d`. -/
theorem gather_row (x : FVec Ideal S50000x64 .f32) (idx : IVec S800000x1 32) (E : Fin 800000) (d : Fin 64) :
    Host.gather G x idx (ix2 E d)
      = x (ix2 ⟨min (idx (ix2 E (0 : Fin 1))).toInt.toNat 49999, by omega⟩ d) := by
  unfold Host.gather
  congr 1
  funext a
  refine Fin.ext ?_
  match a with
  | ⟨0, _⟩ =>
    show GatherDims.start G (ix2 E d) idx 0 + GatherDims.batchCoord G (ix2 E d) 0 + GatherDims.offCoord G (ix2 E d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap G from List.mem_singleton.mpr rfl)]
    have hsi : GatherDims.siIdx G (ix2 E d) ⟨List.idxOf (0 : Fin 2) (GatherDims.startIndexMap G),
        List.idxOf_lt_length_iff.2 (List.mem_singleton.mpr rfl)⟩ = ix2 E (0 : Fin 1) := by
      funext b; refine Fin.ext ?_
      match b with
      | ⟨0, _⟩ => rfl
      | ⟨1, _⟩ => rfl
    rw [hsi]
    rfl
  | ⟨1, _⟩ =>
    show GatherDims.start G (ix2 E d) idx 1 + GatherDims.batchCoord G (ix2 E d) 1 + GatherDims.offCoord G (ix2 E d) 1 = d.val
    rw [GatherDims.batchCoord_eq_zero _ _ _ List.not_mem_nil]
    have hst : GatherDims.start G (ix2 E d) idx 1 = 0 := by
      unfold GatherDims.start
      rw [dif_neg (show (1 : Fin 2) ∉ GatherDims.startIndexMap G from by decide)]
    have hoff : GatherDims.offCoord G (ix2 E d) 1 = d.val := by
      unfold GatherDims.offCoord
      rw [dif_pos (show (1 : Fin 2) ∈ GatherDims.sKept G from by decide)]
      rfl
    rw [hst, hoff]; omega

/-- Under the range condition the gathered row is the feature row the column id names. -/
theorem gather_apply (x : FVec Ideal S50000x64 .f32) (ei : IVec S2x800000 32) (E : Fin 800000) (d : Fin 64)
    (h : 0 ≤ (ei (ix2 (1 : Fin 2) E)).toInt ∧ (ei (ix2 (1 : Fin 2) E)).toInt < 50000) :
    Read.val_main_v14 (F := Ideal) x ei (ix2 E d) = xAt x (ei (ix2 (1 : Fin 2) E)) d := by
  unfold Read.val_main_v14
  rw [gather_row]
  have hi : Read.idx_main_v13 (ix2 E (0 : Fin 1)) = ix1 E := by
    funext a; match a with | ⟨0, _⟩ => rfl
  have hv : Read.val_main_v13 (F := Ideal) ei (ix2 E (0 : Fin 1)) = ei (ix2 (1 : Fin 2) E) := by
    rw [Read.val_main_v13_apply, hi, start_apply ei E h.1]
  have hnat := toInt_eq_toNat_of_nonneg _ h.1
  have hlt : (ei (ix2 (1 : Fin 2) E)).toNat < 50000 := by omega
  unfold xAt
  rw [dif_pos hlt]
  congr 1
  funext a
  match a with
  | ⟨0, _⟩ =>
    refine Fin.ext ?_
    show min (Read.val_main_v13 (F := Ideal) ei (ix2 E (0 : Fin 1))).toInt.toNat 49999 = (ei (ix2 (1 : Fin 2) E)).toNat
    rw [hv, hnat, Int.toNat_natCast]
    omega
  | ⟨1, _⟩ => rfl

/-! ## The messages -/

/-- The product of the broadcast weight and the gathered row is the edge's message. -/
theorem msg_apply (x : FVec Ideal S50000x64 .f32) (ei : IVec S2x800000 32) (ew : FVec Ideal S800000 .f32)
    (E : Fin 800000) (d : Fin 64)
    (h : 0 ≤ (ei (ix2 (1 : Fin 2) E)).toInt ∧ (ei (ix2 (1 : Fin 2) E)).toInt < 50000) :
    Read.val_main_v16 (F := Ideal) x ei ew (ix2 E d) = emsg x ei ew d E := by
  rw [Read.val_main_v16_apply, Read.val_main_v15_apply, Read.val_main_v7_apply]
  have hi : Read.idx_main_v7 (Read.idx_main_v15 (ix2 E d)) = ix1 E := by
    funext a; match a with | ⟨0, _⟩ => rfl
  rw [hi, w_apply, gather_apply x ei E d h]
  rfl

/-! ## The accumulating scatter -/

local notation "Sc" => scatter_S50000x64_S800000x1_S800000x64_1_0_0_1

theorem sc_start0 (idx : IVec S800000x1 32) (E : Fin 800000) (d' : Fin 64) :
    ScatterDims.start Sc (ix2 E d') idx 0 = (idx (ix2 E (0 : Fin 1))).toInt := by
  unfold ScatterDims.start
  rw [dif_pos (show (0 : Fin 2) ∈ ScatterDims.scatterDimsToOperandDims Sc from List.mem_singleton.mpr rfl)]
  have hsi : ScatterDims.siIdx Sc (ix2 E d') ⟨List.idxOf (0 : Fin 2) (ScatterDims.scatterDimsToOperandDims Sc),
      List.idxOf_lt_length_iff.2 (List.mem_singleton.mpr rfl)⟩ = ix2 E (0 : Fin 1) := by
    funext b; refine Fin.ext ?_
    match b with
    | ⟨0, _⟩ => rfl
    | ⟨1, _⟩ => rfl
  rw [hsi]

theorem sc_start1 (idx : IVec S800000x1 32) (E : Fin 800000) (d' : Fin 64) :
    ScatterDims.start Sc (ix2 E d') idx 1 = 0 := by
  unfold ScatterDims.start
  rw [dif_neg (show (1 : Fin 2) ∉ ScatterDims.scatterDimsToOperandDims Sc from by decide)]

theorem sc_window0 (E : Fin 800000) (d' : Fin 64) : ScatterDims.window Sc (ix2 E d') 0 = 0 := by
  unfold ScatterDims.window
  rw [dif_neg (show (0 : Fin 2) ∉ ScatterDims.sKept Sc from by decide)]

theorem sc_window1 (E : Fin 800000) (d' : Fin 64) : ScatterDims.window Sc (ix2 E d') 1 = d'.val := by
  unfold ScatterDims.window
  rw [dif_pos (show (1 : Fin 2) ∈ ScatterDims.sKept Sc from by decide)]
  rfl

/-- The update at edge `E`, feature `d'` lands on node `n`, feature `d` exactly when the features are the same and the
    edge's scatter index, read signed, is `n`. -/
theorem resultIdx_iff (idx : IVec S800000x1 32) (E : Fin 800000) (d' : Fin 64) (n : Fin 50000) (d : Fin 64) :
    ScatterDims.resultIdx? Sc (ix2 E d') idx = some (ix2 n d)
      ↔ (d' = d ∧ (idx (ix2 E (0 : Fin 1))).toInt = (n.val : Int)) := by
  unfold ScatterDims.resultIdx?
  constructor
  · intro heq
    split at heq
    · rename_i hall
      have hfun := Option.some.inj heq
      have e0 := congrArg Fin.val (congrFun hfun 0)
      have e1 := congrArg Fin.val (congrFun hfun 1)
      have hp0 := (hall 0).1
      simp only [sc_start0, sc_window0] at e0 hp0
      simp only [sc_start1, sc_window1] at e1
      have e0' : ((idx (ix2 E (0 : Fin 1))).toInt + ((0 : Nat) : Int)).toNat = n.val := e0
      have e1' : ((0 : Int) + (d'.val : Int)).toNat = d.val := e1
      refine ⟨Fin.ext (by omega), by omega⟩
    · exact absurd heq (by simp)
  · rintro ⟨rfl, hn⟩
    have hnlt := n.isLt
    have hdlt := d'.isLt
    have hall : ∀ a : Fin S50000x64.rank, 0 ≤ ScatterDims.start Sc (ix2 E d') idx a + ScatterDims.window Sc (ix2 E d') a
        ∧ ScatterDims.start Sc (ix2 E d') idx a + ScatterDims.window Sc (ix2 E d') a < S50000x64.size a := by
      intro a
      match a with
      | ⟨0, _⟩ =>
        show 0 ≤ ScatterDims.start Sc (ix2 E d') idx 0 + ScatterDims.window Sc (ix2 E d') 0
          ∧ ScatterDims.start Sc (ix2 E d') idx 0 + ScatterDims.window Sc (ix2 E d') 0 < ((50000 : Nat) : Int)
        rw [sc_start0, sc_window0]; omega
      | ⟨1, _⟩ =>
        show 0 ≤ ScatterDims.start Sc (ix2 E d') idx 1 + ScatterDims.window Sc (ix2 E d') 1
          ∧ ScatterDims.start Sc (ix2 E d') idx 1 + ScatterDims.window Sc (ix2 E d') 1 < ((64 : Nat) : Int)
        rw [sc_start1, sc_window1]; omega
    rw [dif_pos hall]
    congr 1
    funext a
    refine Fin.ext ?_
    match a with
    | ⟨0, _⟩ =>
      show (ScatterDims.start Sc (ix2 E d') idx 0 + ScatterDims.window Sc (ix2 E d') 0).toNat = n.val
      rw [sc_start0, sc_window0]; omega
    | ⟨1, _⟩ =>
      show (ScatterDims.start Sc (ix2 E d') idx 1 + ScatterDims.window Sc (ix2 E d') 1).toNat = d'.val
      rw [sc_start1, sc_window1]; omega

/-- The scatter read at node `n`, feature `d`: the operand there plus the sum, over the edges whose scatter index read
    signed is `n`, of the update at that edge and feature `d`. -/
theorem scatter_row (op : FVec Ideal S50000x64 .f32) (idx : IVec S800000x1 32) (upd : FVec Ideal S800000x64 .f32)
    (n : Fin 50000) (d : Fin 64) :
    Host.scatterAdd Sc op idx upd (ix2 n d)
      = op (ix2 n d) + ∑ E : Fin 800000, if (idx (ix2 E (0 : Fin 1))).toInt = (n.val : Int) then upd (ix2 E d) else 0 := by
  show Ideal.hostScatterAdd Sc op idx upd (ix2 n d) = _
  unfold Ideal.hostScatterAdd
  rw [Finset.sum_filter, sum_idx2]
  refine congrArg (fun s => op (ix2 n d) + s) ?_
  refine Finset.sum_congr rfl (fun E _ => ?_)
  by_cases hP : (idx (ix2 E (0 : Fin 1))).toInt = (n.val : Int)
  · rw [if_pos hP, Finset.sum_eq_single d]
    · rw [if_pos ((resultIdx_iff idx E d n d).2 ⟨rfl, hP⟩)]
    · intro d' _ hne
      rw [if_neg (fun h => hne ((resultIdx_iff idx E d' n d).1 h).1)]
    · intro h; exact absurd (Finset.mem_univ d) h
  · rw [if_neg hP]
    exact Finset.sum_eq_zero (fun d' _ => if_neg (fun h => hP ((resultIdx_iff idx E d' n d).1 h).2))

/-- The scattered table at node `n`, feature `d` is the aggregate there. -/
theorem agg_apply (x : FVec Ideal S50000x64 .f32) (ei : IVec S2x800000 32) (ew : FVec Ideal S800000 .f32)
    (hcol : ∀ E : Fin 800000, 0 ≤ (ei (ix2 (1 : Fin 2) E)).toInt ∧ (ei (ix2 (1 : Fin 2) E)).toInt < 50000)
    (n : Fin 50000) (d : Fin 64) :
    Read.val_main_v19 (F := Ideal) x ei ew (ix2 n d) = agg x ei ew n.val d := by
  unfold Read.val_main_v19
  rw [scatter_row, Read.val_main_v17_apply, Read.val_main_cst_1_apply]
  show Ideal.ofBits .f32 0x00000000#32 + _ = _
  rw [Ideal.ofBits_zero_f32, zero_add]
  unfold agg
  refine Finset.sum_congr rfl (fun E _ => ?_)
  rw [Read.val_main_v18_apply]
  have hi : Read.idx_main_v18 (ix2 E (0 : Fin 1)) = ix1 E := by
    funext a; match a with | ⟨0, _⟩ => rfl
  rw [hi, row_apply, msg_apply x ei ew E d (hcol E)]
  unfold edgeTerm
  by_cases hr : ei (ix2 (0 : Fin 2) E) = BitVec.ofNat 32 n.val
  · rw [if_pos hr, if_pos ((toInt_eq_iff_eq_ofNat _ n.val n.isLt).2 hr)]
  · rw [if_neg hr, if_neg (fun h => hr ((toInt_eq_iff_eq_ofNat _ n.val n.isLt).1 h))]

/-! ## The factor 1 + ε, and the result -/

/-- The one-element array of ε, reshaped to a scalar, reads its element. -/
theorem eps_apply (eps : FVec Ideal S1 .f32) (i : S_.Idx) :
    Read.val_main_v20 (F := Ideal) eps i = eps (ix1 (0 : Fin 1)) := by
  unfold Read.val_main_v20
  exact Idealize.ShloMosaic.shapeCast_apply eps shapeCasts_S1_S_ i (ix1 (0 : Fin 1))
    (by rw [Shape.rowMajor_val_one]; exact (Shape.rowMajorPi_zero _ _).symm)

/-- The reference's result is the layer's specification, wherever every column id names a row of the table. -/
theorem ref_result (x : FVec Ideal S50000x64 .f32) (ei : IVec S2x800000 32) (ew : FVec Ideal S800000 .f32)
    (eps : FVec Ideal S1 .f32)
    (hcol : ∀ E : Fin 800000, 0 ≤ (ei (ix2 (1 : Fin 2) E)).toInt ∧ (ei (ix2 (1 : Fin 2) E)).toInt < 50000) :
    Read.val_main_v24 (F := Ideal) x ei ew eps = Cert.GinSpec.result x ei ew eps := by
  funext y
  obtain ⟨n, d, rfl⟩ : ∃ (n : Fin 50000) (d : Fin 64), y = ix2 n d := ⟨y 0, y 1, eq_ix2 y⟩
  rw [Read.val_main_v24_apply, Read.val_main_v23_apply, Read.val_main_v22_apply, Read.val_main_v21_apply,
    Read.val_main_cst_2_apply, eps_apply, agg_apply x ei ew hcol n d]
  rfl

end Cert.ReferenceIdeal.GinRef

end
-- ==== Proof.PreCol.lean ====
/-
  The column ids lie in the node range. The printed precondition is a one-bit conjunction whose last
  conjunct is the all-reduction (by and, from true) of the mask (c ≥ 0) ∧ (c < 50000), where c is row 1 of the
  edge list, sliced out as a [1, 800000] block and flattened to [800000], and both comparisons are signed
  comparisons against a broadcast scalar. If the whole function is the bit 1 then so is that last conjunct, so
  every entry of the mask is 1, so both comparisons hold at every edge E; a signed comparison that holds is the
  order of the two words' signed values, which is the claim 0 ≤ col E < 50000 over the integers.
  The three finiteness conjuncts are not used.
-/
import proofs.«418629_j48507360641133_4_alg».proof.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.Pre_finite_inputs.GinPre

open Idealize.ShloMosaic Idealize.ShloMosaic.ValueIdx Cert.Pre_finite_inputs

/-- The rank-0 shape has one index. -/
instance : Subsingleton S_.Idx := ⟨fun a b => funext fun d => d.elim0⟩

/-! ## Words: a signed comparison that holds is the order of the signed values -/

/-- Signed `≥ 0` that holds: the signed value is not negative. -/
theorem sge_zero (a : BitVec 32) (h : IntOp.cmpi .sge a 0#32 = 1#1) : 0 ≤ a.toInt := by
  have h' : ((0#32 : BitVec 32).sle a) = true := (StableHlo.Predicate.ofBool_eq_one_iff _).1 h
  have hz : (0#32 : BitVec 32).toInt = 0 := by decide
  simp only [BitVec.sle, decide_eq_true_eq, hz] at h'
  exact h'

/-- Signed `< 50000` that holds: the signed value is below 50000. -/
theorem slt_bound (a : BitVec 32) (h : IntOp.cmpi .slt a 50000#32 = 1#1) : a.toInt < 50000 := by
  have h' : (a.slt (50000#32 : BitVec 32)) = true := (StableHlo.Predicate.ofBool_eq_one_iff _).1 h
  have hz : (50000#32 : BitVec 32).toInt = 50000 := by decide
  simp only [BitVec.slt, decide_eq_true_eq, hz] at h'
  exact h'

/-! ## Reads: row 1 of the edge list, sliced and flattened, read at an edge -/

/-- The slice [1:2, 0:800000] of the edge list flattened to [800000] reads, at E, the entry (1, E). -/
theorem col_read [Facts] (ei : IVec S2x800000 32) (E : Fin 800000) :
    shapeCast S800000 (extractStridedSlice S1x800000 ![1, 0] ei Facts.slices_S2x800000_S1x800000_1_0)
      Facts.shapeCasts_S1x800000_S800000 (ix1 E) = ei (ix2 (1 : Fin 2) E) := by
  refine (shapeCast_apply _ _ (ix1 E) (ix2 (0 : Fin 1) E) ?_).trans ?_
  · rw [Shape.rowMajor_val_two, Shape.rowMajor_val_one]
    show (0 : Nat) * 800000 + E.val = E.val
    omega
  · refine extractStridedSlice_apply _ _ _ _ _ fun a => ?_
    match a with
    | ⟨0, _⟩ => show (1 : Nat) = 1 + 0; rfl
    | ⟨1, _⟩ => show E.val = 0 + E.val; omega

/-- A scalar word broadcast to [800000] reads the scalar everywhere. -/
theorem bcast_read [Facts] (c : BitVec 32) (j : S800000.Idx) :
    broadcastInDim S800000 ![] Facts.bcast_S_S800000 (constantI S_ 32 c) j = c := rfl

/-! ## The range -/

theorem col_range [Cert.Pre_finite_inputs.Facts] (x : FVec Ideal S50000x64 .f32) (ei : IVec S2x800000 32) (ew : FVec Ideal S800000 .f32) (eps : FVec Ideal S1 .f32)
    (h : Cert.Pre_finite_inputs.fn (F := Ideal) x ei ew eps = fun _ => 1#1) (E : Fin 800000) :
    0 ≤ (ei (ix2 (1 : Fin 2) E)).toInt ∧ (ei (ix2 (1 : Fin 2) E)).toInt < 50000 := by
  have h0 := congrFun h ix0
  dsimp only [fn, fn_part1] at h0
  -- the last conjunct of the one-bit conjunction
  have h1 := (IntOp.andi_eq_one.1 h0).2
  -- every entry of the reduced mask is 1
  have h2 := Host.reduce_andi_all _ _ _ _ _ h1 (ix1 E)
  -- both comparisons hold at E
  obtain ⟨hge, hlt⟩ := IntOp.andi_eq_one.1 h2
  have hge' : IntOp.cmpi .sge (ei (ix2 (1 : Fin 2) E)) 0#32 = 1#1 := by
    rw [← col_read ei E]; exact hge
  have hlt' : IntOp.cmpi .slt (ei (ix2 (1 : Fin 2) E)) 50000#32 = 1#1 := by
    rw [← col_read ei E]; exact hlt
  exact ⟨sge_zero _ hge', slt_bound _ hlt'⟩

end Cert.Pre_finite_inputs.GinPre

end
-- ==== Proof.lean ====
/-
  A graph layer, out = (1 + ε) · x + Σ over the edges (i → j) of w · x[j] with self loops weighing nothing, computed by a
  kernel that does the gather and the scatter as one-hot matrix products over a zero-padded feature table, 128 edges
  per grid point on a grid of 2 × 3125 points, against the reference's gather and segment sum.

  Under the precondition — every float input finite, and every column id a row of the feature table, 0 ≤ col < 50000
  (where the reference's own gather would index out of range otherwise) — both programs run, keep their arguments, and
  end at one function of the arguments (Proof/Spec.lean), equal as extended reals element by element:
    * the kernel: each grid point adds to the carried output block the messages of its 128 edges at their row nodes
      (Proof/Pieces.lean, over the payloads read at an index in Proof/GatherPay.lean and Proof/ScatterPay.lean and the
      algebra of one block in Proof/Algebra.lean); the block after a point is the sum of its core's deltas so far, and
      each core's row of the result array is the sum of its 3125 blocks (Proof/Accum.lean); the host operations before
      the region lay out the row ids, column ids, loop-free weights and the padded table (Proof/HostPre.lean), those
      after it add the two rows, cut the padding and add (1 + ε) · x (Proof/Tail.lean); re-bracketing the sums gives
      the aggregate over all 800000 edges (Proof/Sums.lean, Proof/Bridge.lean). The kernel's one-hot gather reads the
      zero row for a column id that names no row, so this side needs nothing of the precondition;
    * the reference: its gather clamps and wraps the column id, which under the range condition is the id itself, and
      its accumulating scatter at the ideal instance is the sum of the updates landing on each element
      (Proof/RefSide.lean); the range condition is read out of the printed precondition in Proof/PreCol.lean.
  No law used needs finiteness: a zero factor kills its term and sums are only re-bracketed. The three frames are the
  generated ones; the idealization rewrote nothing, so `preserves` is trivial.
-/
import proofs.«418629_j48507360641133_4_alg».proof.Defs
import proofs.«418629_j48507360641133_4_alg».proof.Proof.Gen.Kernel
import proofs.«418629_j48507360641133_4_alg».proof.Proof.Gen.Kernel.Skeleton
import proofs.«418629_j48507360641133_4_alg».proof.Proof.Gen.Kernel.Launch
import proofs.«418629_j48507360641133_4_alg».proof.Proof.Gen.Kernel.Points
import proofs.«418629_j48507360641133_4_alg».proof.Proof.Gen.Kernel.Frame
import proofs.«418629_j48507360641133_4_alg».proof.Proof.Gen.KernelIdeal
import proofs.«418629_j48507360641133_4_alg».proof.Proof.Gen.KernelIdeal.Skeleton
import proofs.«418629_j48507360641133_4_alg».proof.Proof.Gen.KernelIdeal.Launch
import proofs.«418629_j48507360641133_4_alg».proof.Proof.Gen.KernelIdeal.Points
import proofs.«418629_j48507360641133_4_alg».proof.Proof.Gen.KernelIdeal.Frame
import proofs.«418629_j48507360641133_4_alg».proof.Proof.Gen.ReferenceIdeal
import proofs.«418629_j48507360641133_4_alg».proof.Proof.Gen.ReferenceIdeal.Run
import proofs.«418629_j48507360641133_4_alg».proof.Proof.Gen.ReferenceIdeal.Read
import proofs.«418629_j48507360641133_4_alg».proof.Proof.Gen.Pre_finite_inputs
import proofs.«418629_j48507360641133_4_alg».proof.Proof.Bridge
import proofs.«418629_j48507360641133_4_alg».proof.Proof.RefSide
import proofs.«418629_j48507360641133_4_alg».proof.Proof.PreCol
import Idealize.ShloMosaic.Adequacy
import Idealize.ShloMosaic.Init

noncomputable section

namespace Cert.Proof

open Idealize.ShloMosaic Idealize.ShloMosaic.ValueIdx Idealize.SL.Sem
open Cert.KernelIdeal.GinHost Cert.KernelIdeal.GinTail

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the layer's specification of the argument arrays: the kernel whatever the ids are,
    the reference because every column id names a row of the table. -/
theorem algebraic : Cert.algebraic_KernelIdeal_ReferenceIdeal := by
  intro m ρ m' ρ' hpre hagree
  have hcol : ∀ (c : Dev Cert.KernelIdeal.nD) (E : Fin 800000),
      0 ≤ (argEI m c (ix2 (1 : Fin 2) E)).toInt ∧ (argEI m c (ix2 (1 : Fin 2) E)).toInt < 50000 :=
    fun c E => Cert.Pre_finite_inputs.GinPre.col_range _ _ _ _ (hpre c) E
  refine ⟨fun c => Cert.GinSpec.result (argX m c) (argEI m c) (argEW m c) (argEps m c), ?_, ?_⟩
  · refine (θ_run Cert.KernelIdeal.defs _ _).mono (fun r h c => ?_) (Cert.KernelIdeal.Gen.run_main m ρ)
    exact ⟨((h c).2 Cert.KernelIdeal.main_v20 (Pipeline.mem_restRefs_of Cert.KernelIdeal.main_v20 (by decide) (by decide))).trans
        (Cert.KernelIdeal.GinBridge.kernel_value m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩
  · refine (θ_run Cert.ReferenceIdeal.defs _ _).mono (fun _ h c => ⟨?_, (h c).2⟩)
      (Cert.ReferenceIdeal.Value.run (F := Ideal) m' ρ')
    have hc' : ∀ E : Fin 800000,
        0 ≤ ((m' ((c.tc : Thread Cert.ReferenceIdeal.nD Cert.ReferenceIdeal.τ).loc Cert.ReferenceIdeal.main_arg1) : IVec Cert.ReferenceIdeal.S2x800000 32) (ix2 (1 : Fin 2) E)).toInt
        ∧ ((m' ((c.tc : Thread Cert.ReferenceIdeal.nD Cert.ReferenceIdeal.τ).loc Cert.ReferenceIdeal.main_arg1) : IVec Cert.ReferenceIdeal.S2x800000 32) (ix2 (1 : Fin 2) E)).toInt < 50000 := by
      intro E
      rw [(hagree c).2.1]
      exact hcol c E
    rw [(h c).1, Cert.ReferenceIdeal.Read.val_main_v24_eq, Cert.ReferenceIdeal.GinRef.ref_result _ _ _ _ hc',
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
